-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x128 : Shape := ⟨2, ![1000000, 128]⟩
abbrev S2000000 : Shape := ⟨1, ![2000000]⟩
abbrev S200000 : Shape := ⟨1, ![200000]⟩
abbrev S20480 : Shape := ⟨1, ![20480]⟩
abbrev S128x256 : Shape := ⟨2, ![128, 256]⟩
abbrev S256 : Shape := ⟨1, ![256]⟩
abbrev S256x256 : Shape := ⟨2, ![256, 256]⟩
abbrev S256x47 : Shape := ⟨2, ![256, 47]⟩
abbrev S47 : Shape := ⟨1, ![47]⟩
abbrev S_ : Shape := ⟨0, ![]⟩

class Facts : Prop where
  bcast_S_S1000000x128 : S_.BroadcastsInDim S1000000x128 (![] : Fin 0 → Fin S1000000x128.rank)
  reducesTo_S1000000x128_S_d0_1 : S1000000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x47 : S_.BroadcastsInDim S256x47 (![] : Fin 0 → Fin S256x47.rank)
  reducesTo_S256x47_S_d0_1 : S256x47.ReducesTo [0, 1] S_
  bcast_S_S47 : S_.BroadcastsInDim S47 (![] : Fin 0 → Fin S47.rank)
  reducesTo_S47_S_d0 : S47.ReducesTo [0] S_

variable [Facts]

def fn_part2 {F : FTy → Type} [FloatOps F] (main_arg13 : FVec F S256x47 .f32) (main_arg14 : FVec F S256x47 .f32) (main_arg15 : FVec F S47 .f32) (main_v33 : IVec S_ 1) : IVec S_ 1 :=
  let main_v34 : FVec F S256x47 .f32 := Host.absf main_arg13
  let main_cst_12 : FVec F S_ .f32 := constant S_ .f32 0x7F800000#32
  let main_v35 : FVec F S256x47 .f32 := broadcastInDim S256x47 ![] bcast_S_S256x47 main_cst_12
  let main_v36 : IVec S256x47 1 := cmpf .olt main_v34 main_v35
  let main_c_13 : IVec S_ 1 := constantI S_ 1 1#1
  let main_v37 : IVec S_ 1 := (fun x v => Host.reduce IntOp.andi x v reducesTo_S256x47_S_d0_1 h_S_) main_v36 main_c_13
  let main_v38 : IVec S_ 1 := andi main_v33 main_v37
  let main_v39 : FVec F S256x47 .f32 := Host.absf main_arg14
  let main_cst_14 : FVec F S_ .f32 := constant S_ .f32 0x7F800000#32
  let main_v40 : FVec F S256x47 .f32 := broadcastInDim S256x47 ![] bcast_S_S256x47 main_cst_14
  let main_v41 : IVec S256x47 1 := cmpf .olt main_v39 main_v40
  let main_c_15 : IVec S_ 1 := constantI S_ 1 1#1
  let main_v42 : IVec S_ 1 := (fun x v => Host.reduce IntOp.andi x v reducesTo_S256x47_S_d0_1 h_S_) main_v41 main_c_15
  let main_v43 : IVec S_ 1 := andi main_v38 main_v42
  let main_v44 : FVec F S47 .f32 := Host.absf main_arg15
  let main_cst_16 : FVec F S_ .f32 := constant S_ .f32 0x7F800000#32
  let main_v45 : FVec F S47 .f32 := broadcastInDim S47 ![] bcast_S_S47 main_cst_16
  let main_v46 : IVec S47 1 := cmpf .olt main_v44 main_v45
  let main_c_17 : IVec S_ 1 := constantI S_ 1 1#1
  let main_v47 : IVec S_ 1 := (fun x v => Host.reduce IntOp.andi x v reducesTo_S47_S_d0 h_S_) main_v46 main_c_17
  let main_v48 : IVec S_ 1 := andi main_v43 main_v47
  main_v48

def fn_part1 {F : FTy → Type} [FloatOps F] (main_arg10 : FVec F S256x256 .f32) (main_arg11 : FVec F S256x256 .f32) (main_arg12 : FVec F S256 .f32) (main_arg13 : FVec F S256x47 .f32) (main_arg14 : FVec F S256x47 .f32) (main_arg15 : FVec F S47 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg10
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256x256 .f32 := Host.absf main_arg11
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg12
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg13 main_arg14 main_arg15 main_v33

def fn {F : FTy → Type} [FloatOps F] (main_arg0 : FVec F S1000000x128 .f32) (main_arg1 : IVec S2000000 32) (main_arg2 : IVec S2000000 32) (main_arg3 : IVec S200000 32) (main_arg4 : IVec S200000 32) (main_arg5 : IVec S20480 32) (main_arg6 : IVec S20480 32) (main_arg7 : FVec F S128x256 .f32) (main_arg8 : FVec F S128x256 .f32) (main_arg9 : FVec F S256 .f32) (main_arg10 : FVec F S256x256 .f32) (main_arg11 : FVec F S256x256 .f32) (main_arg12 : FVec F S256 .f32) (main_arg13 : FVec F S256x47 .f32) (main_arg14 : FVec F S256x47 .f32) (main_arg15 : FVec F S47 .f32) : IVec S_ 1 :=
  let main_v0 : FVec F S1000000x128 .f32 := Host.absf main_arg0
  let main_cst : FVec F S_ .f32 := constant S_ .f32 0x7F800000#32
  let main_v1 : FVec F S1000000x128 .f32 := broadcastInDim S1000000x128 ![] bcast_S_S1000000x128 main_cst
  let main_v2 : IVec S1000000x128 1 := cmpf .olt main_v0 main_v1
  let main_c : IVec S_ 1 := constantI S_ 1 1#1
  let main_v3 : IVec S_ 1 := (fun x v => Host.reduce IntOp.andi x v reducesTo_S1000000x128_S_d0_1 h_S_) main_v2 main_c
  let main_v4 : FVec F S128x256 .f32 := Host.absf main_arg7
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128x256 .f32 := Host.absf main_arg8
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg9
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg10 main_arg11 main_arg12 main_arg13 main_arg14 main_arg15 main_v13 main_v16
-- ==== Kernel.lean ====
abbrev S1000000x128 : Shape := ⟨2, ![1000000, 128]⟩
abbrev S2000000 : Shape := ⟨1, ![2000000]⟩
abbrev S200000 : Shape := ⟨1, ![200000]⟩
abbrev S20480 : Shape := ⟨1, ![20480]⟩
abbrev S128x256 : Shape := ⟨2, ![128, 256]⟩
abbrev S256 : Shape := ⟨1, ![256]⟩
abbrev S256x256 : Shape := ⟨2, ![256, 256]⟩
abbrev S256x47 : Shape := ⟨2, ![256, 47]⟩
abbrev S47 : Shape := ⟨1, ![47]⟩
abbrev S_ : Shape := ⟨0, ![]⟩
abbrev S2000000x1 : Shape := ⟨2, ![2000000, 1]⟩
abbrev S2000000x128 : Shape := ⟨2, ![2000000, 128]⟩
abbrev S200000x128 : Shape := ⟨2, ![200000, 128]⟩
abbrev S200000x1 : Shape := ⟨2, ![200000, 1]⟩
abbrev S200704x128 : Shape := ⟨2, ![200704, 128]⟩
abbrev S1x256 : Shape := ⟨2, ![1, 256]⟩
abbrev S200704x256 : Shape := ⟨2, ![200704, 256]⟩
abbrev S200000x256 : Shape := ⟨2, ![200000, 256]⟩
abbrev S20000x256 : Shape := ⟨2, ![20000, 256]⟩
abbrev S20000 : Shape := ⟨1, ![20000]⟩
abbrev S20000x1 : Shape := ⟨2, ![20000, 1]⟩
abbrev S20480x256 : Shape := ⟨2, ![20480, 256]⟩
abbrev S20480x1 : Shape := ⟨2, ![20480, 1]⟩
abbrev S2048x256 : Shape := ⟨2, ![2048, 256]⟩
abbrev S2048 : Shape := ⟨1, ![2048]⟩
abbrev S2048x1 : Shape := ⟨2, ![2048, 1]⟩
abbrev S1x47 : Shape := ⟨2, ![1, 47]⟩
abbrev S2048x47 : Shape := ⟨2, ![2048, 47]⟩
abbrev S2048x128 : Shape := ⟨2, ![2048, 128]⟩

abbrev nBuf : Space → Nat
  | .hbm => 120
  | .vmem => 24
  | .smem => 0
  | _ => 0

abbrev bufTy : (tb : Table) → Fin (tcTables nBuf tb) → BufTy
  | .hbm, ⟨0, _⟩ => ⟨S1000000x128, .f32⟩
  | .hbm, ⟨1, _⟩ => ⟨S2000000, .i32⟩
  | .hbm, ⟨2, _⟩ => ⟨S2000000, .i32⟩
  | .hbm, ⟨3, _⟩ => ⟨S200000, .i32⟩
  | .hbm, ⟨4, _⟩ => ⟨S200000, .i32⟩
  | .hbm, ⟨5, _⟩ => ⟨S20480, .i32⟩
  | .hbm, ⟨6, _⟩ => ⟨S20480, .i32⟩
  | .hbm, ⟨7, _⟩ => ⟨S128x256, .f32⟩
  | .hbm, ⟨8, _⟩ => ⟨S128x256, .f32⟩
  | .hbm, ⟨9, _⟩ => ⟨S256, .f32⟩
  | .hbm, ⟨10, _⟩ => ⟨S256x256, .f32⟩
  | .hbm, ⟨11, _⟩ => ⟨S256x256, .f32⟩
  | .hbm, ⟨12, _⟩ => ⟨S256, .f32⟩
  | .hbm, ⟨13, _⟩ => ⟨S256x47, .f32⟩
  | .hbm, ⟨14, _⟩ => ⟨S256x47, .f32⟩
  | .hbm, ⟨15, _⟩ => ⟨S47, .f32⟩
  | .hbm, ⟨16, _⟩ => ⟨S_, .i32⟩
  | .hbm, ⟨17, _⟩ => ⟨S2000000, .i32⟩
  | .hbm, ⟨18, _⟩ => ⟨S2000000, .i1⟩
  | .hbm, ⟨19, _⟩ => ⟨S_, .i32⟩
  | .hbm, ⟨20, _⟩ => ⟨S2000000, .i32⟩
  | .hbm, ⟨21, _⟩ => ⟨S2000000, .i32⟩
  | .hbm, ⟨22, _⟩ => ⟨S2000000, .i32⟩
  | .hbm, ⟨23, _⟩ => ⟨S2000000x1, .i32⟩
  | .hbm, ⟨24, _⟩ => ⟨S2000000x128, .f32⟩
  | .hbm, ⟨25, _⟩ => ⟨S_, .f32⟩
  | .hbm, ⟨26, _⟩ => ⟨S200000x128, .f32⟩
  | .hbm, ⟨27, _⟩ => ⟨S2000000x1, .i32⟩
  | .hbm, ⟨28, _⟩ => ⟨S200000x128, .f32⟩
  | .hbm, ⟨29, _⟩ => ⟨S_, .f32⟩
  | .hbm, ⟨30, _⟩ => ⟨S2000000, .f32⟩
  | .hbm, ⟨31, _⟩ => ⟨S_, .f32⟩
  | .hbm, ⟨32, _⟩ => ⟨S200000, .f32⟩
  | .hbm, ⟨33, _⟩ => ⟨S2000000x1, .i32⟩
  | .hbm, ⟨34, _⟩ => ⟨S200000, .f32⟩
  | .hbm, ⟨35, _⟩ => ⟨S_, .f32⟩
  | .hbm, ⟨36, _⟩ => ⟨S200000, .f32⟩
  | .hbm, ⟨37, _⟩ => ⟨S200000, .f32⟩
  | .hbm, ⟨38, _⟩ => ⟨S200000x1, .f32⟩
  | .hbm, ⟨39, _⟩ => ⟨S200000x128, .f32⟩
  | .hbm, ⟨40, _⟩ => ⟨S200000x128, .f32⟩
  | .hbm, ⟨41, _⟩ => ⟨S200000x128, .f32⟩
  | .hbm, ⟨42, _⟩ => ⟨S_, .i32⟩
  | .hbm, ⟨43, _⟩ => ⟨S_, .f32⟩
  | .hbm, ⟨44, _⟩ => ⟨S200704x128, .f32⟩
  | .hbm, ⟨45, _⟩ => ⟨S_, .i32⟩
  | .hbm, ⟨46, _⟩ => ⟨S_, .f32⟩
  | .hbm, ⟨47, _⟩ => ⟨S200704x128, .f32⟩
  | .hbm, ⟨48, _⟩ => ⟨S128x256, .bf16⟩
  | .hbm, ⟨49, _⟩ => ⟨S128x256, .bf16⟩
  | .hbm, ⟨50, _⟩ => ⟨S1x256, .f32⟩
  | .hbm, ⟨51, _⟩ => ⟨S200704x256, .f32⟩
  | .hbm, ⟨52, _⟩ => ⟨S200000x256, .f32⟩
  | .hbm, ⟨53, _⟩ => ⟨S_, .i32⟩
  | .hbm, ⟨54, _⟩ => ⟨S200000, .i32⟩
  | .hbm, ⟨55, _⟩ => ⟨S200000, .i1⟩
  | .hbm, ⟨56, _⟩ => ⟨S_, .i32⟩
  | .hbm, ⟨57, _⟩ => ⟨S200000, .i32⟩
  | .hbm, ⟨58, _⟩ => ⟨S200000, .i32⟩
  | .hbm, ⟨59, _⟩ => ⟨S200000, .i32⟩
  | .hbm, ⟨60, _⟩ => ⟨S200000x1, .i32⟩
  | .hbm, ⟨61, _⟩ => ⟨S200000x256, .f32⟩
  | .hbm, ⟨62, _⟩ => ⟨S_, .f32⟩
  | .hbm, ⟨63, _⟩ => ⟨S20000x256, .f32⟩
  | .hbm, ⟨64, _⟩ => ⟨S200000x1, .i32⟩
  | .hbm, ⟨65, _⟩ => ⟨S20000x256, .f32⟩
  | .hbm, ⟨66, _⟩ => ⟨S_, .f32⟩
  | .hbm, ⟨67, _⟩ => ⟨S200000, .f32⟩
  | .hbm, ⟨68, _⟩ => ⟨S_, .f32⟩
  | .hbm, ⟨69, _⟩ => ⟨S20000, .f32⟩
  | .hbm, ⟨70, _⟩ => ⟨S200000x1, .i32⟩
  | .hbm, ⟨71, _⟩ => ⟨S20000, .f32⟩
  | .hbm, ⟨72, _⟩ => ⟨S_, .f32⟩
  | .hbm, ⟨73, _⟩ => ⟨S20000, .f32⟩
  | .hbm, ⟨74, _⟩ => ⟨S20000, .f32⟩
  | .hbm, ⟨75, _⟩ => ⟨S20000x1, .f32⟩
  | .hbm, ⟨76, _⟩ => ⟨S20000x256, .f32⟩
  | .hbm, ⟨77, _⟩ => ⟨S20000x256, .f32⟩
  | .hbm, ⟨78, _⟩ => ⟨S20000x256, .f32⟩
  | .hbm, ⟨79, _⟩ => ⟨S_, .i32⟩
  | .hbm, ⟨80, _⟩ => ⟨S_, .f32⟩
  | .hbm, ⟨81, _⟩ => ⟨S20480x256, .f32⟩
  | .hbm, ⟨82, _⟩ => ⟨S_, .i32⟩
  | .hbm, ⟨83, _⟩ => ⟨S_, .f32⟩
  | .hbm, ⟨84, _⟩ => ⟨S20480x256, .f32⟩
  | .hbm, ⟨85, _⟩ => ⟨S256x256, .bf16⟩
  | .hbm, ⟨86, _⟩ => ⟨S256x256, .bf16⟩
  | .hbm, ⟨87, _⟩ => ⟨S1x256, .f32⟩
  | .hbm, ⟨88, _⟩ => ⟨S20480x256, .f32⟩
  | .hbm, ⟨89, _⟩ => ⟨S20000x256, .f32⟩
  | .hbm, ⟨90, _⟩ => ⟨S_, .i32⟩
  | .hbm, ⟨91, _⟩ => ⟨S20480, .i32⟩
  | .hbm, ⟨92, _⟩ => ⟨S20480, .i1⟩
  | .hbm, ⟨93, _⟩ => ⟨S_, .i32⟩
  | .hbm, ⟨94, _⟩ => ⟨S20480, .i32⟩
  | .hbm, ⟨95, _⟩ => ⟨S20480, .i32⟩
  | .hbm, ⟨96, _⟩ => ⟨S20480, .i32⟩
  | .hbm, ⟨97, _⟩ => ⟨S20480x1, .i32⟩
  | .hbm, ⟨98, _⟩ => ⟨S20480x256, .f32⟩
  | .hbm, ⟨99, _⟩ => ⟨S_, .f32⟩
  | .hbm, ⟨100, _⟩ => ⟨S2048x256, .f32⟩
  | .hbm, ⟨101, _⟩ => ⟨S20480x1, .i32⟩
  | .hbm, ⟨102, _⟩ => ⟨S2048x256, .f32⟩
  | .hbm, ⟨103, _⟩ => ⟨S_, .f32⟩
  | .hbm, ⟨104, _⟩ => ⟨S20480, .f32⟩
  | .hbm, ⟨105, _⟩ => ⟨S_, .f32⟩
  | .hbm, ⟨106, _⟩ => ⟨S2048, .f32⟩
  | .hbm, ⟨107, _⟩ => ⟨S20480x1, .i32⟩
  | .hbm, ⟨108, _⟩ => ⟨S2048, .f32⟩
  | .hbm, ⟨109, _⟩ => ⟨S_, .f32⟩
  | .hbm, ⟨110, _⟩ => ⟨S2048, .f32⟩
  | .hbm, ⟨111, _⟩ => ⟨S2048, .f32⟩
  | .hbm, ⟨112, _⟩ => ⟨S2048x1, .f32⟩
  | .hbm, ⟨113, _⟩ => ⟨S2048x256, .f32⟩
  | .hbm, ⟨114, _⟩ => ⟨S2048x256, .f32⟩
  | .hbm, ⟨115, _⟩ => ⟨S2048x256, .f32⟩
  | .hbm, ⟨116, _⟩ => ⟨S256x47, .bf16⟩
  | .hbm, ⟨117, _⟩ => ⟨S256x47, .bf16⟩
  | .hbm, ⟨118, _⟩ => ⟨S1x47, .f32⟩
  | .hbm, ⟨119, _⟩ => ⟨S2048x47, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S128x256, .bf16⟩
  | .local _ .vmem, ⟨5, _⟩ => ⟨S128x256, .bf16⟩
  | .local _ .vmem, ⟨6, _⟩ => ⟨S1x256, .f32⟩
  | .local _ .vmem, ⟨7, _⟩ => ⟨S2048x256, .f32⟩
  | .local _ .vmem, ⟨8, _⟩ => ⟨S2048x256, .f32⟩
  | .local _ .vmem, ⟨9, _⟩ => ⟨S2048x256, .f32⟩
  | .local _ .vmem, ⟨10, _⟩ => ⟨S2048x256, .f32⟩
  | .local _ .vmem, ⟨11, _⟩ => ⟨S2048x256, .f32⟩
  | .local _ .vmem, ⟨12, _⟩ => ⟨S2048x256, .f32⟩
  | .local _ .vmem, ⟨13, _⟩ => ⟨S256x256, .bf16⟩
  | .local _ .vmem, ⟨14, _⟩ => ⟨S256x256, .bf16⟩
  | .local _ .vmem, ⟨15, _⟩ => ⟨S1x256, .f32⟩
  | .local _ .vmem, ⟨16, _⟩ => ⟨S2048x256, .f32⟩
  | .local _ .vmem, ⟨17, _⟩ => ⟨S2048x256, .f32⟩
  | .local _ .vmem, ⟨18, _⟩ => ⟨S2048x256, .f32⟩
  | .local _ .vmem, ⟨19, _⟩ => ⟨S2048x256, .f32⟩
  | .local _ .vmem, ⟨20, _⟩ => ⟨S256x47, .bf16⟩
  | .local _ .vmem, ⟨21, _⟩ => ⟨S256x47, .bf16⟩
  | .local _ .vmem, ⟨22, _⟩ => ⟨S1x47, .f32⟩
  | .local _ .vmem, ⟨23, _⟩ => ⟨S2048x47, .f32⟩
  | _, _ => ⟨S1000000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_cst : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_cst_1 : Ref sig .tc := ⟨.hbm, 29, rfl⟩
abbrev main_call0_v10 : Ref sig .tc := ⟨.hbm, 30, rfl⟩
abbrev main_call0_cst_2 : Ref sig .tc := ⟨.hbm, 31, rfl⟩
abbrev main_call0_v11 : Ref sig .tc := ⟨.hbm, 32, rfl⟩
abbrev main_call0_v12 : Ref sig .tc := ⟨.hbm, 33, rfl⟩
abbrev main_call0_v13 : Ref sig .tc := ⟨.hbm, 34, rfl⟩
abbrev main_call0_cst_3 : Ref sig .tc := ⟨.hbm, 35, rfl⟩
abbrev main_call0_v14 : Ref sig .tc := ⟨.hbm, 36, rfl⟩
abbrev main_call0_v15 : Ref sig .tc := ⟨.hbm, 37, rfl⟩
abbrev main_call0_v16 : Ref sig .tc := ⟨.hbm, 38, rfl⟩
abbrev main_call0_v17 : Ref sig .tc := ⟨.hbm, 39, rfl⟩
abbrev main_call0_v18 : Ref sig .tc := ⟨.hbm, 40, rfl⟩
abbrev main_call0_v19 : Ref sig .tc := ⟨.hbm, 41, rfl⟩
abbrev main_call0_c_4 : Ref sig .tc := ⟨.hbm, 42, rfl⟩
abbrev main_call0_call0_v0 : Ref sig .tc := ⟨.hbm, 43, rfl⟩
abbrev main_call0_v20 : Ref sig .tc := ⟨.hbm, 44, rfl⟩
abbrev main_call0_c_5 : Ref sig .tc := ⟨.hbm, 45, rfl⟩
abbrev main_call0_call1_v0 : Ref sig .tc := ⟨.hbm, 46, rfl⟩
abbrev main_call0_v21 : Ref sig .tc := ⟨.hbm, 47, rfl⟩
abbrev main_call0_v22 : Ref sig .tc := ⟨.hbm, 48, rfl⟩
abbrev main_call0_v23 : Ref sig .tc := ⟨.hbm, 49, rfl⟩
abbrev main_call0_v24 : Ref sig .tc := ⟨.hbm, 50, rfl⟩
abbrev main_call0_v25 : Ref sig .tc := ⟨.hbm, 51, rfl⟩
abbrev main_call0_v26 : Ref sig .tc := ⟨.hbm, 52, rfl⟩
abbrev main_call0_c_6 : Ref sig .tc := ⟨.hbm, 53, rfl⟩
abbrev main_call0_v27 : Ref sig .tc := ⟨.hbm, 54, rfl⟩
abbrev main_call0_v28 : Ref sig .tc := ⟨.hbm, 55, rfl⟩
abbrev main_call0_c_7 : Ref sig .tc := ⟨.hbm, 56, rfl⟩
abbrev main_call0_v29 : Ref sig .tc := ⟨.hbm, 57, rfl⟩
abbrev main_call0_v30 : Ref sig .tc := ⟨.hbm, 58, rfl⟩
abbrev main_call0_v31 : Ref sig .tc := ⟨.hbm, 59, rfl⟩
abbrev main_call0_v32 : Ref sig .tc := ⟨.hbm, 60, rfl⟩
abbrev main_call0_v33 : Ref sig .tc := ⟨.hbm, 61, rfl⟩
abbrev main_call0_cst_8 : Ref sig .tc := ⟨.hbm, 62, rfl⟩
abbrev main_call0_v34 : Ref sig .tc := ⟨.hbm, 63, rfl⟩
abbrev main_call0_v35 : Ref sig .tc := ⟨.hbm, 64, rfl⟩
abbrev main_call0_v36 : Ref sig .tc := ⟨.hbm, 65, rfl⟩
abbrev main_call0_cst_9 : Ref sig .tc := ⟨.hbm, 66, rfl⟩
abbrev main_call0_v37 : Ref sig .tc := ⟨.hbm, 67, rfl⟩
abbrev main_call0_cst_10 : Ref sig .tc := ⟨.hbm, 68, rfl⟩
abbrev main_call0_v38 : Ref sig .tc := ⟨.hbm, 69, rfl⟩
abbrev main_call0_v39 : Ref sig .tc := ⟨.hbm, 70, rfl⟩
abbrev main_call0_v40 : Ref sig .tc := ⟨.hbm, 71, rfl⟩
abbrev main_call0_cst_11 : Ref sig .tc := ⟨.hbm, 72, rfl⟩
abbrev main_call0_v41 : Ref sig .tc := ⟨.hbm, 73, rfl⟩
abbrev main_call0_v42 : Ref sig .tc := ⟨.hbm, 74, rfl⟩
abbrev main_call0_v43 : Ref sig .tc := ⟨.hbm, 75, rfl⟩
abbrev main_call0_v44 : Ref sig .tc := ⟨.hbm, 76, rfl⟩
abbrev main_call0_v45 : Ref sig .tc := ⟨.hbm, 77, rfl⟩
abbrev main_call0_v46 : Ref sig .tc := ⟨.hbm, 78, rfl⟩
abbrev main_call0_c_12 : Ref sig .tc := ⟨.hbm, 79, rfl⟩
abbrev main_call0_call2_v0 : Ref sig .tc := ⟨.hbm, 80, rfl⟩
abbrev main_call0_v47 : Ref sig .tc := ⟨.hbm, 81, rfl⟩
abbrev main_call0_c_13 : Ref sig .tc := ⟨.hbm, 82, rfl⟩
abbrev main_call0_call3_v0 : Ref sig .tc := ⟨.hbm, 83, rfl⟩
abbrev main_call0_v48 : Ref sig .tc := ⟨.hbm, 84, rfl⟩
abbrev main_call0_v49 : Ref sig .tc := ⟨.hbm, 85, rfl⟩
abbrev main_call0_v50 : Ref sig .tc := ⟨.hbm, 86, rfl⟩
abbrev main_call0_v51 : Ref sig .tc := ⟨.hbm, 87, rfl⟩
abbrev main_call0_v52 : Ref sig .tc := ⟨.hbm, 88, rfl⟩
abbrev main_call0_v53 : Ref sig .tc := ⟨.hbm, 89, rfl⟩
abbrev main_call0_c_14 : Ref sig .tc := ⟨.hbm, 90, rfl⟩
abbrev main_call0_v54 : Ref sig .tc := ⟨.hbm, 91, rfl⟩
abbrev main_call0_v55 : Ref sig .tc := ⟨.hbm, 92, rfl⟩
abbrev main_call0_c_15 : Ref sig .tc := ⟨.hbm, 93, rfl⟩
abbrev main_call0_v56 : Ref sig .tc := ⟨.hbm, 94, rfl⟩
abbrev main_call0_v57 : Ref sig .tc := ⟨.hbm, 95, rfl⟩
abbrev main_call0_v58 : Ref sig .tc := ⟨.hbm, 96, rfl⟩
abbrev main_call0_v59 : Ref sig .tc := ⟨.hbm, 97, rfl⟩
abbrev main_call0_v60 : Ref sig .tc := ⟨.hbm, 98, rfl⟩
abbrev main_call0_cst_16 : Ref sig .tc := ⟨.hbm, 99, rfl⟩
abbrev main_call0_v61 : Ref sig .tc := ⟨.hbm, 100, rfl⟩
abbrev main_call0_v62 : Ref sig .tc := ⟨.hbm, 101, rfl⟩
abbrev main_call0_v63 : Ref sig .tc := ⟨.hbm, 102, rfl⟩
abbrev main_call0_cst_17 : Ref sig .tc := ⟨.hbm, 103, rfl⟩
abbrev main_call0_v64 : Ref sig .tc := ⟨.hbm, 104, rfl⟩
abbrev main_call0_cst_18 : Ref sig .tc := ⟨.hbm, 105, rfl⟩
abbrev main_call0_v65 : Ref sig .tc := ⟨.hbm, 106, rfl⟩
abbrev main_call0_v66 : Ref sig .tc := ⟨.hbm, 107, rfl⟩
abbrev main_call0_v67 : Ref sig .tc := ⟨.hbm, 108, rfl⟩
abbrev main_call0_cst_19 : Ref sig .tc := ⟨.hbm, 109, rfl⟩
abbrev main_call0_v68 : Ref sig .tc := ⟨.hbm, 110, rfl⟩
abbrev main_call0_v69 : Ref sig .tc := ⟨.hbm, 111, rfl⟩
abbrev main_call0_v70 : Ref sig .tc := ⟨.hbm, 112, rfl⟩
abbrev main_call0_v71 : Ref sig .tc := ⟨.hbm, 113, rfl⟩
abbrev main_call0_v72 : Ref sig .tc := ⟨.hbm, 114, rfl⟩
abbrev main_call0_v73 : Ref sig .tc := ⟨.hbm, 115, rfl⟩
abbrev main_call0_v74 : Ref sig .tc := ⟨.hbm, 116, rfl⟩
abbrev main_call0_v75 : Ref sig .tc := ⟨.hbm, 117, rfl⟩
abbrev main_call0_v76 : Ref sig .tc := ⟨.hbm, 118, rfl⟩
abbrev main_v0 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem1_0 : DmaSem sig := 19
abbrev cc2_sem2_0 : DmaSem sig := 20
abbrev cc2_sem3_0 : DmaSem sig := 21
abbrev cc2_sem4_0 : DmaSem sig := 22
abbrev cc2_sem5_0 : DmaSem sig := 23

abbrev nD : Nat := 1
abbrev τ : Topo := Topo.v7x

variable {F : FTy → Type} [FloatOps F]

abbrev grid0 : Pipeline.Grid := ⟨1, ![98], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2048x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S2048x256 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 1 → Memref sig .tc .vmem S2048x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true]

abbrev stage2_2 : Fin 1 → Memref sig .tc .vmem S256x47 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x47 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x47 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S2048x47 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![true]

class Facts₀ : Prop where
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S200000x128 : S_.BroadcastsInDim S200000x128 (![] : Fin 0 → Fin S200000x128.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x128_0_1 : S200000x1.BroadcastsInDim S200000x128 (![0, 1] : Fin 2 → Fin S200000x128.rank)
  slices_S1000000x128_S200000x128_0_0 : S1000000x128.Slices ![0, 0] S200000x128
  pads_S200000x128_S200704x128_07040_000 : S200000x128.Pads (![0, 0] : Fin 2 → Nat) ![704, 0] ![0, 0] S200704x128
  h_S_ : 0 < S_.numel
  bitsLt_bf16_f32 : FTy.bits .bf16 < FTy.bits .f32
  shapeCasts_S256_S1x256 : S256.ShapeCasts S1x256
  slices_S200704x256_S200000x256_0_0 : S200704x256.Slices ![0, 0] S200000x256
  bcast_S_S20000x256 : S_.BroadcastsInDim S20000x256 (![] : Fin 0 → Fin S20000x256.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x256_0_1 : S20000x1.BroadcastsInDim S20000x256 (![0, 1] : Fin 2 → Fin S20000x256.rank)
  slices_S200000x256_S20000x256_0_0 : S200000x256.Slices ![0, 0] S20000x256
  pads_S20000x256_S20480x256_04800_000 : S20000x256.Pads (![0, 0] : Fin 2 → Nat) ![480, 0] ![0, 0] S20480x256
  slices_S20480x256_S20000x256_0_0 : S20480x256.Slices ![0, 0] S20000x256
  bcast_S_S20480 : S_.BroadcastsInDim S20480 (![] : Fin 0 → Fin S20480.rank)
  bcast_S20480_S20480x1_0 : S20480.BroadcastsInDim S20480x1 (![0] : Fin 1 → Fin S20480x1.rank)
  bcast_S_S2048x256 : S_.BroadcastsInDim S2048x256 (![] : Fin 0 → Fin S2048x256.rank)
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x256_0_1 : S2048x1.BroadcastsInDim S2048x256 (![0, 1] : Fin 2 → Fin S2048x256.rank)
  slices_S20000x256_S2048x256_0_0 : S20000x256.Slices ![0, 0] S2048x256
  shapeCasts_S47_S1x47 : S47.ShapeCasts S1x47
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x47_S256x47_0_0 : ∀ a, (![0, 0] : Fin 2 → Nat) a + S256x47.size a ≤ S256x47.size a
  h_S256x47 : 0 < S256x47.numel
  shapeCasts_S256x47_S256x47 : S256x47.ShapeCasts S256x47
  inb_S1x47_S1x47_0_0 : ∀ a, (![0, 0] : Fin 2 → Nat) a + S1x47.size a ≤ S1x47.size a
  h_S1x47 : 0 < S1x47.numel
  shapeCasts_S1x47_S1x47 : S1x47.ShapeCasts S1x47
  broadcasts_S1x47_S2048x47 : S1x47.Broadcasts S2048x47
  inb_S2048x47_S2048x47_0_0 : ∀ a, (![0, 0] : Fin 2 → Nat) a + S2048x47.size a ≤ S2048x47.size a
  h_S2048x47 : 0 < S2048x47.numel
  gather_S1000000x128_S2000000x1_S2000000x128_1_0_n_n_0_1_1128_wf : GatherDims.WF S1000000x128 S2000000x1 S2000000x128 [1] [0] [] [0] [] 1 ![1, 128]
  scatter_S200000x128_S2000000x1_S2000000x128_1_0_0_1_wf : ScatterDims.WF S200000x128 S2000000x1 S2000000x128 [1] [0] [0] 1
  scatter_S200000_S2000000x1_S2000000_n_0_0_1_wf : ScatterDims.WF S200000 S2000000x1 S2000000 [] [0] [0] 1
  gather_S200000x256_S200000x1_S200000x256_1_0_n_n_0_1_1256_wf : GatherDims.WF S200000x256 S200000x1 S200000x256 [1] [0] [] [0] [] 1 ![1, 256]
  scatter_S20000x256_S200000x1_S200000x256_1_0_0_1_wf : ScatterDims.WF S20000x256 S200000x1 S200000x256 [1] [0] [0] 1
  scatter_S20000_S200000x1_S200000_n_0_0_1_wf : ScatterDims.WF S20000 S200000x1 S200000 [] [0] [0] 1
  gather_S20000x256_S20480x1_S20480x256_1_0_n_n_0_1_1256_wf : GatherDims.WF S20000x256 S20480x1 S20480x256 [1] [0] [] [0] [] 1 ![1, 256]
  scatter_S2048x256_S20480x1_S20480x256_1_0_0_1_wf : ScatterDims.WF S2048x256 S20480x1 S20480x256 [1] [0] [0] 1
  scatter_S2048_S20480x1_S20480_n_0_0_1_wf : ScatterDims.WF S2048 S20480x1 S20480 [] [0] [0] 1
  dot_S2048x128_S128x256_S2048x256_1_0_0_1_n_n_wf : DotDims.WF S2048x128 S128x256 S2048x256 [1] [0] [0] [1] [] []
  dot_S2048x256_S256x256_S2048x256_1_0_0_1_n_n_wf : DotDims.WF S2048x256 S256x256 S2048x256 [1] [0] [0] [1] [] []
  dot_S2048x256_S256x47_S2048x47_1_0_0_1_n_n_wf : DotDims.WF S2048x256 S256x47 S2048x47 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S200704x128.size a
  hwx0_0 : ∀ i : grid0.Coords, EltTy.bits .f32 = 32 ∨ (Rect.block (s := S200704x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S200704x128.size a
  hwx0_1 : ∀ i : grid0.Coords, EltTy.bits .f32 = 32 ∨ (Rect.block (s := S200704x128) S2048x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .bf16 = 32 ∨ (Rect.block (s := S128x256) S128x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .bf16 = 32 ∨ (Rect.block (s := S128x256) S128x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x256.size a ≤ S200704x256.size a
  hwx0_5 : ∀ i : grid0.Coords, EltTy.bits .f32 = 32 ∨ (Rect.block (s := S200704x256) S2048x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x256.size a ≤ S20480x256.size a
  hwx1_0 : ∀ i : grid1.Coords, EltTy.bits .f32 = 32 ∨ (Rect.block (s := S20480x256) S2048x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x256.size a ≤ S20480x256.size a
  hwx1_1 : ∀ i : grid1.Coords, EltTy.bits .f32 = 32 ∨ (Rect.block (s := S20480x256) S2048x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .bf16 = 32 ∨ (Rect.block (s := S256x256) S256x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .bf16 = 32 ∨ (Rect.block (s := S256x256) S256x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2048x256.size a ≤ S20480x256.size a
  hwx1_5 : ∀ i : grid1.Coords, EltTy.bits .f32 = 32 ∨ (Rect.block (s := S20480x256) S2048x256.size (cc1_transform_5 i) (hinb1_5 i)).WholeWords (EltTy.packing .f32)
  hrank2 : 0 < grid2.rank
  hstage2_0 : ∀ j, (stage2_0 j).IsWhole
  nbuf2_0 : grid2.bufCount reads2_0 false = 1
  hreads2_0 : ∀ i i' : grid2.Coords, (∀ a, reads2_0 a = true → i a = i' a) → cc2_transform_0 i = cc2_transform_0 i'
  hinb2_0 : ∀ (i : grid2.Coords) a, (cc2_transform_0 i a + 1) * S2048x256.size a ≤ S2048x256.size a
  hwx2_0 : ∀ i : grid2.Coords, EltTy.bits .f32 = 32 ∨ (Rect.block (s := S2048x256) S2048x256.size (cc2_transform_0 i) (hinb2_0 i)).WholeWords (EltTy.packing .f32)
  hstage2_1 : ∀ j, (stage2_1 j).IsWhole
  nbuf2_1 : grid2.bufCount reads2_1 false = 1
  hreads2_1 : ∀ i i' : grid2.Coords, (∀ a, reads2_1 a = true → i a = i' a) → cc2_transform_1 i = cc2_transform_1 i'
  hinb2_1 : ∀ (i : grid2.Coords) a, (cc2_transform_1 i a + 1) * S2048x256.size a ≤ S2048x256.size a
  hwx2_1 : ∀ i : grid2.Coords, EltTy.bits .f32 = 32 ∨ (Rect.block (s := S2048x256) S2048x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x47.size a ≤ S256x47.size a
  hwx2_2 : ∀ i : grid2.Coords, EltTy.bits .bf16 = 32 ∨ (Rect.block (s := S256x47) S256x47.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x47.size a ≤ S256x47.size a
  hwx2_3 : ∀ i : grid2.Coords, EltTy.bits .bf16 = 32 ∨ (Rect.block (s := S256x47) S256x47.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x47.size a ≤ S1x47.size a
  hwx2_4 : ∀ i : grid2.Coords, EltTy.bits .f32 = 32 ∨ (Rect.block (s := S1x47) S1x47.size (cc2_transform_4 i) (hinb2_4 i)).WholeWords (EltTy.packing .f32)
  hstage2_5 : ∀ j, (stage2_5 j).IsWhole
  nbuf2_5 : grid2.bufCount reads2_5 false = 1
  hreads2_5 : ∀ i i' : grid2.Coords, (∀ a, reads2_5 a = true → i a = i' a) → cc2_transform_5 i = cc2_transform_5 i'
  hinb2_5 : ∀ (i : grid2.Coords) a, (cc2_transform_5 i a + 1) * S2048x47.size a ≤ S2048x47.size a
  hwx2_5 : ∀ i : grid2.Coords, EltTy.bits .f32 = 32 ∨ (Rect.block (s := S2048x47) S2048x47.size (cc2_transform_5 i) (hinb2_5 i)).WholeWords (EltTy.packing .f32)

variable [Facts₀]

def gather_S1000000x128_S2000000x1_S2000000x128_1_0_n_n_0_1_1128 : GatherDims S1000000x128 S2000000x1 S2000000x128 where
  offsetDims := [1]
  collapsedSliceDims := [0]
  operandBatchingDims := []
  startIndicesBatchingDims := []
  startIndexMap := [0]
  indexVectorDim := 1
  sliceSizes := ![1, 128]
  wf := gather_S1000000x128_S2000000x1_S2000000x128_1_0_n_n_0_1_1128_wf
def scatter_S200000x128_S2000000x1_S2000000x128_1_0_0_1 : ScatterDims S200000x128 S2000000x1 S2000000x128 where
  updateWindowDims := [1]
  insertedWindowDims := [0]
  scatterDimsToOperandDims := [0]
  indexVectorDim := 1
  wf := scatter_S200000x128_S2000000x1_S2000000x128_1_0_0_1_wf
def scatter_S200000_S2000000x1_S2000000_n_0_0_1 : ScatterDims S200000 S2000000x1 S2000000 where
  updateWindowDims := []
  insertedWindowDims := [0]
  scatterDimsToOperandDims := [0]
  indexVectorDim := 1
  wf := scatter_S200000_S2000000x1_S2000000_n_0_0_1_wf
def gather_S200000x256_S200000x1_S200000x256_1_0_n_n_0_1_1256 : GatherDims S200000x256 S200000x1 S200000x256 where
  offsetDims := [1]
  collapsedSliceDims := [0]
  operandBatchingDims := []
  startIndicesBatchingDims := []
  startIndexMap := [0]
  indexVectorDim := 1
  sliceSizes := ![1, 256]
  wf := gather_S200000x256_S200000x1_S200000x256_1_0_n_n_0_1_1256_wf
def scatter_S20000x256_S200000x1_S200000x256_1_0_0_1 : ScatterDims S20000x256 S200000x1 S200000x256 where
  updateWindowDims := [1]
  insertedWindowDims := [0]
  scatterDimsToOperandDims := [0]
  indexVectorDim := 1
  wf := scatter_S20000x256_S200000x1_S200000x256_1_0_0_1_wf
def scatter_S20000_S200000x1_S200000_n_0_0_1 : ScatterDims S20000 S200000x1 S200000 where
  updateWindowDims := []
  insertedWindowDims := [0]
  scatterDimsToOperandDims := [0]
  indexVectorDim := 1
  wf := scatter_S20000_S200000x1_S200000_n_0_0_1_wf
def gather_S20000x256_S20480x1_S20480x256_1_0_n_n_0_1_1256 : GatherDims S20000x256 S20480x1 S20480x256 where
  offsetDims := [1]
  collapsedSliceDims := [0]
  operandBatchingDims := []
  startIndicesBatchingDims := []
  startIndexMap := [0]
  indexVectorDim := 1
  sliceSizes := ![1, 256]
  wf := gather_S20000x256_S20480x1_S20480x256_1_0_n_n_0_1_1256_wf
def scatter_S2048x256_S20480x1_S20480x256_1_0_0_1 : ScatterDims S2048x256 S20480x1 S20480x256 where
  updateWindowDims := [1]
  insertedWindowDims := [0]
  scatterDimsToOperandDims := [0]
  indexVectorDim := 1
  wf := scatter_S2048x256_S20480x1_S20480x256_1_0_0_1_wf
def scatter_S2048_S20480x1_S20480_n_0_0_1 : ScatterDims S2048 S20480x1 S20480 where
  updateWindowDims := []
  insertedWindowDims := [0]
  scatterDimsToOperandDims := [0]
  indexVectorDim := 1
  wf := scatter_S2048_S20480x1_S20480_n_0_0_1_wf
def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x256_S256x47_S2048x47_1_0_0_1_n_n : DotDims S2048x256 S256x47 S2048x47 where
  lhsContracting := [1]
  rhsContracting := [0]
  lhsNonContracting := [0]
  rhsNonContracting := [1]
  lhsBatch := []
  rhsBatch := []
  wf := dot_S2048x256_S256x47_S2048x47_1_0_0_1_n_n_wf

abbrev win0_0 : Pipeline.Window sig grid0 :=
  Pipeline.Window.ofSpec (Memref.whole main_call0_v20) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v21) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v22) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v23) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v24) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v25) S2048x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_call0_v47) S2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v48) S2048x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v49) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v50) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v51) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_call0_v52) S2048x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_call0_v73) S2048x256.size cc2_transform_0 reads2_0 false false 1 stage2_0 sem2_0
    hrank2 hreads2_0 hinb2_0 nbuf2_0 (Memref.isWhole_whole _) hwx2_0 hstage2_0

abbrev win2_1 : Pipeline.Window sig grid2 :=
  Pipeline.Window.ofSpec (Memref.whole main_call0_v72) S2048x256.size cc2_transform_1 reads2_1 false false 1 stage2_1 sem2_1
    hrank2 hreads2_1 hinb2_1 nbuf2_1 (Memref.isWhole_whole _) hwx2_1 hstage2_1

abbrev win2_2 : Pipeline.Window sig grid2 :=
  Pipeline.Window.ofSpec (Memref.whole main_call0_v74) S256x47.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_call0_v75) S256x47.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_call0_v76) S1x47.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v0) S2048x47.size cc2_transform_5 reads2_5 true false 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S1000000x128 : Shape := ⟨2, ![1000000, 128]⟩
abbrev S2000000 : Shape := ⟨1, ![2000000]⟩
abbrev S200000 : Shape := ⟨1, ![200000]⟩
abbrev S20480 : Shape := ⟨1, ![20480]⟩
abbrev S128x256 : Shape := ⟨2, ![128, 256]⟩
abbrev S256 : Shape := ⟨1, ![256]⟩
abbrev S256x256 : Shape := ⟨2, ![256, 256]⟩
abbrev S256x47 : Shape := ⟨2, ![256, 47]⟩
abbrev S47 : Shape := ⟨1, ![47]⟩
abbrev S_ : Shape := ⟨0, ![]⟩
abbrev S2000000x1 : Shape := ⟨2, ![2000000, 1]⟩
abbrev S2000000x128 : Shape := ⟨2, ![2000000, 128]⟩
abbrev S200000x128 : Shape := ⟨2, ![200000, 128]⟩
abbrev S200000x1 : Shape := ⟨2, ![200000, 1]⟩
abbrev S200000x256 : Shape := ⟨2, ![200000, 256]⟩
abbrev S1x256 : Shape := ⟨2, ![1, 256]⟩
abbrev S20000x256 : Shape := ⟨2, ![20000, 256]⟩
abbrev S20000 : Shape := ⟨1, ![20000]⟩
abbrev S20000x1 : Shape := ⟨2, ![20000, 1]⟩
abbrev S20480x1 : Shape := ⟨2, ![20480, 1]⟩
abbrev S20480x256 : Shape := ⟨2, ![20480, 256]⟩
abbrev S2048x256 : Shape := ⟨2, ![2048, 256]⟩
abbrev S2048 : Shape := ⟨1, ![2048]⟩
abbrev S2048x1 : Shape := ⟨2, ![2048, 1]⟩
abbrev S2048x47 : Shape := ⟨2, ![2048, 47]⟩
abbrev S1x47 : Shape := ⟨2, ![1, 47]⟩

abbrev nBuf : Space → Nat
  | .hbm => 118
  | .vmem => 0
  | .smem => 0
  | _ => 0

abbrev bufTy : (tb : Table) → Fin (tcTables nBuf tb) → BufTy
  | .hbm, ⟨0, _⟩ => ⟨S1000000x128, .f32⟩
  | .hbm, ⟨1, _⟩ => ⟨S2000000, .i32⟩
  | .hbm, ⟨2, _⟩ => ⟨S2000000, .i32⟩
  | .hbm, ⟨3, _⟩ => ⟨S200000, .i32⟩
  | .hbm, ⟨4, _⟩ => ⟨S200000, .i32⟩
  | .hbm, ⟨5, _⟩ => ⟨S20480, .i32⟩
  | .hbm, ⟨6, _⟩ => ⟨S20480, .i32⟩
  | .hbm, ⟨7, _⟩ => ⟨S128x256, .f32⟩
  | .hbm, ⟨8, _⟩ => ⟨S128x256, .f32⟩
  | .hbm, ⟨9, _⟩ => ⟨S256, .f32⟩
  | .hbm, ⟨10, _⟩ => ⟨S256x256, .f32⟩
  | .hbm, ⟨11, _⟩ => ⟨S256x256, .f32⟩
  | .hbm, ⟨12, _⟩ => ⟨S256, .f32⟩
  | .hbm, ⟨13, _⟩ => ⟨S256x47, .f32⟩
  | .hbm, ⟨14, _⟩ => ⟨S256x47, .f32⟩
  | .hbm, ⟨15, _⟩ => ⟨S47, .f32⟩
  | .hbm, ⟨16, _⟩ => ⟨S_, .i32⟩
  | .hbm, ⟨17, _⟩ => ⟨S2000000, .i32⟩
  | .hbm, ⟨18, _⟩ => ⟨S2000000, .i1⟩
  | .hbm, ⟨19, _⟩ => ⟨S_, .i32⟩
  | .hbm, ⟨20, _⟩ => ⟨S2000000, .i32⟩
  | .hbm, ⟨21, _⟩ => ⟨S2000000, .i32⟩
  | .hbm, ⟨22, _⟩ => ⟨S2000000, .i32⟩
  | .hbm, ⟨23, _⟩ => ⟨S2000000x1, .i32⟩
  | .hbm, ⟨24, _⟩ => ⟨S2000000x128, .f32⟩
  | .hbm, ⟨25, _⟩ => ⟨S_, .f32⟩
  | .hbm, ⟨26, _⟩ => ⟨S200000x128, .f32⟩
  | .hbm, ⟨27, _⟩ => ⟨S2000000x1, .i32⟩
  | .hbm, ⟨28, _⟩ => ⟨S200000x128, .f32⟩
  | .hbm, ⟨29, _⟩ => ⟨S_, .f32⟩
  | .hbm, ⟨30, _⟩ => ⟨S2000000, .f32⟩
  | .hbm, ⟨31, _⟩ => ⟨S_, .f32⟩
  | .hbm, ⟨32, _⟩ => ⟨S200000, .f32⟩
  | .hbm, ⟨33, _⟩ => ⟨S2000000x1, .i32⟩
  | .hbm, ⟨34, _⟩ => ⟨S200000, .f32⟩
  | .hbm, ⟨35, _⟩ => ⟨S_, .f32⟩
  | .hbm, ⟨36, _⟩ => ⟨S200000, .f32⟩
  | .hbm, ⟨37, _⟩ => ⟨S200000, .f32⟩
  | .hbm, ⟨38, _⟩ => ⟨S200000x1, .f32⟩
  | .hbm, ⟨39, _⟩ => ⟨S200000x128, .f32⟩
  | .hbm, ⟨40, _⟩ => ⟨S200000x128, .f32⟩
  | .hbm, ⟨41, _⟩ => ⟨S200000x128, .f32⟩
  | .hbm, ⟨42, _⟩ => ⟨S200000x256, .f32⟩
  | .hbm, ⟨43, _⟩ => ⟨S200000x256, .f32⟩
  | .hbm, ⟨44, _⟩ => ⟨S200000x256, .f32⟩
  | .hbm, ⟨45, _⟩ => ⟨S1x256, .f32⟩
  | .hbm, ⟨46, _⟩ => ⟨S200000x256, .f32⟩
  | .hbm, ⟨47, _⟩ => ⟨S200000x256, .f32⟩
  | .hbm, ⟨48, _⟩ => ⟨S_, .f32⟩
  | .hbm, ⟨49, _⟩ => ⟨S200000x256, .f32⟩
  | .hbm, ⟨50, _⟩ => ⟨S200000x256, .f32⟩
  | .hbm, ⟨51, _⟩ => ⟨S_, .i32⟩
  | .hbm, ⟨52, _⟩ => ⟨S200000, .i32⟩
  | .hbm, ⟨53, _⟩ => ⟨S200000, .i1⟩
  | .hbm, ⟨54, _⟩ => ⟨S_, .i32⟩
  | .hbm, ⟨55, _⟩ => ⟨S200000, .i32⟩
  | .hbm, ⟨56, _⟩ => ⟨S200000, .i32⟩
  | .hbm, ⟨57, _⟩ => ⟨S200000, .i32⟩
  | .hbm, ⟨58, _⟩ => ⟨S200000x1, .i32⟩
  | .hbm, ⟨59, _⟩ => ⟨S200000x256, .f32⟩
  | .hbm, ⟨60, _⟩ => ⟨S_, .f32⟩
  | .hbm, ⟨61, _⟩ => ⟨S20000x256, .f32⟩
  | .hbm, ⟨62, _⟩ => ⟨S200000x1, .i32⟩
  | .hbm, ⟨63, _⟩ => ⟨S20000x256, .f32⟩
  | .hbm, ⟨64, _⟩ => ⟨S_, .f32⟩
  | .hbm, ⟨65, _⟩ => ⟨S200000, .f32⟩
  | .hbm, ⟨66, _⟩ => ⟨S_, .f32⟩
  | .hbm, ⟨67, _⟩ => ⟨S20000, .f32⟩
  | .hbm, ⟨68, _⟩ => ⟨S200000x1, .i32⟩
  | .hbm, ⟨69, _⟩ => ⟨S20000, .f32⟩
  | .hbm, ⟨70, _⟩ => ⟨S_, .f32⟩
  | .hbm, ⟨71, _⟩ => ⟨S20000, .f32⟩
  | .hbm, ⟨72, _⟩ => ⟨S20000, .f32⟩
  | .hbm, ⟨73, _⟩ => ⟨S20000x1, .f32⟩
  | .hbm, ⟨74, _⟩ => ⟨S20000x256, .f32⟩
  | .hbm, ⟨75, _⟩ => ⟨S20000x256, .f32⟩
  | .hbm, ⟨76, _⟩ => ⟨S20000x256, .f32⟩
  | .hbm, ⟨77, _⟩ => ⟨S20000x256, .f32⟩
  | .hbm, ⟨78, _⟩ => ⟨S20000x256, .f32⟩
  | .hbm, ⟨79, _⟩ => ⟨S20000x256, .f32⟩
  | .hbm, ⟨80, _⟩ => ⟨S1x256, .f32⟩
  | .hbm, ⟨81, _⟩ => ⟨S20000x256, .f32⟩
  | .hbm, ⟨82, _⟩ => ⟨S20000x256, .f32⟩
  | .hbm, ⟨83, _⟩ => ⟨S_, .f32⟩
  | .hbm, ⟨84, _⟩ => ⟨S20000x256, .f32⟩
  | .hbm, ⟨85, _⟩ => ⟨S20000x256, .f32⟩
  | .hbm, ⟨86, _⟩ => ⟨S_, .i32⟩
  | .hbm, ⟨87, _⟩ => ⟨S20480, .i32⟩
  | .hbm, ⟨88, _⟩ => ⟨S20480, .i1⟩
  | .hbm, ⟨89, _⟩ => ⟨S_, .i32⟩
  | .hbm, ⟨90, _⟩ => ⟨S20480, .i32⟩
  | .hbm, ⟨91, _⟩ => ⟨S20480, .i32⟩
  | .hbm, ⟨92, _⟩ => ⟨S20480, .i32⟩
  | .hbm, ⟨93, _⟩ => ⟨S20480x1, .i32⟩
  | .hbm, ⟨94, _⟩ => ⟨S20480x256, .f32⟩
  | .hbm, ⟨95, _⟩ => ⟨S_, .f32⟩
  | .hbm, ⟨96, _⟩ => ⟨S2048x256, .f32⟩
  | .hbm, ⟨97, _⟩ => ⟨S20480x1, .i32⟩
  | .hbm, ⟨98, _⟩ => ⟨S2048x256, .f32⟩
  | .hbm, ⟨99, _⟩ => ⟨S_, .f32⟩
  | .hbm, ⟨100, _⟩ => ⟨S20480, .f32⟩
  | .hbm, ⟨101, _⟩ => ⟨S_, .f32⟩
  | .hbm, ⟨102, _⟩ => ⟨S2048, .f32⟩
  | .hbm, ⟨103, _⟩ => ⟨S20480x1, .i32⟩
  | .hbm, ⟨104, _⟩ => ⟨S2048, .f32⟩
  | .hbm, ⟨105, _⟩ => ⟨S_, .f32⟩
  | .hbm, ⟨106, _⟩ => ⟨S2048, .f32⟩
  | .hbm, ⟨107, _⟩ => ⟨S2048, .f32⟩
  | .hbm, ⟨108, _⟩ => ⟨S2048x1, .f32⟩
  | .hbm, ⟨109, _⟩ => ⟨S2048x256, .f32⟩
  | .hbm, ⟨110, _⟩ => ⟨S2048x256, .f32⟩
  | .hbm, ⟨111, _⟩ => ⟨S2048x256, .f32⟩
  | .hbm, ⟨112, _⟩ => ⟨S2048x47, .f32⟩
  | .hbm, ⟨113, _⟩ => ⟨S2048x47, .f32⟩
  | .hbm, ⟨114, _⟩ => ⟨S2048x47, .f32⟩
  | .hbm, ⟨115, _⟩ => ⟨S1x47, .f32⟩
  | .hbm, ⟨116, _⟩ => ⟨S2048x47, .f32⟩
  | .hbm, ⟨117, _⟩ => ⟨S2048x47, .f32⟩
  | _, _ => ⟨S1000000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst_1 : Ref sig .tc := ⟨.hbm, 29, rfl⟩
abbrev main_v10 : Ref sig .tc := ⟨.hbm, 30, rfl⟩
abbrev main_cst_2 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_3 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_call0_cst : Ref sig .tc := ⟨.hbm, 48, rfl⟩
abbrev main_call0_v0 : Ref sig .tc := ⟨.hbm, 49, rfl⟩
abbrev main_v26 : Ref sig .tc := ⟨.hbm, 50, rfl⟩
abbrev main_c_4 : Ref sig .tc := ⟨.hbm, 51, rfl⟩
abbrev main_v27 : Ref sig .tc := ⟨.hbm, 52, rfl⟩
abbrev main_v28 : Ref sig .tc := ⟨.hbm, 53, rfl⟩
abbrev main_c_5 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_6 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_7 : Ref sig .tc := ⟨.hbm, 64, rfl⟩
abbrev main_v37 : Ref sig .tc := ⟨.hbm, 65, rfl⟩
abbrev main_cst_8 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_9 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_call1_cst : Ref sig .tc := ⟨.hbm, 83, rfl⟩
abbrev main_call1_v0 : Ref sig .tc := ⟨.hbm, 84, rfl⟩
abbrev main_v53 : Ref sig .tc := ⟨.hbm, 85, rfl⟩
abbrev main_c_10 : Ref sig .tc := ⟨.hbm, 86, rfl⟩
abbrev main_v54 : Ref sig .tc := ⟨.hbm, 87, rfl⟩
abbrev main_v55 : Ref sig .tc := ⟨.hbm, 88, rfl⟩
abbrev main_c_11 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_cst_12 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_cst_13 : Ref sig .tc := ⟨.hbm, 99, rfl⟩
abbrev main_v64 : Ref sig .tc := ⟨.hbm, 100, rfl⟩
abbrev main_cst_14 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_cst_15 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩

abbrev nD : Nat := 1
abbrev τ : Topo := Topo.v7x

variable {F : FTy → Type} [FloatOps F]

class Facts₀ : Prop where
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S200000x128 : S_.BroadcastsInDim S200000x128 (![] : Fin 0 → Fin S200000x128.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x128_0_1 : S200000x1.BroadcastsInDim S200000x128 (![0, 1] : Fin 2 → Fin S200000x128.rank)
  slices_S1000000x128_S200000x128_0_0 : S1000000x128.Slices ![0, 0] S200000x128
  bcast_S256_S1x256_1 : S256.BroadcastsInDim S1x256 (![1] : Fin 1 → Fin S1x256.rank)
  bcast_S1x256_S200000x256_0_1 : S1x256.BroadcastsInDim S200000x256 (![0, 1] : Fin 2 → Fin S200000x256.rank)
  bcast_S_S200000x256 : S_.BroadcastsInDim S200000x256 (![] : Fin 0 → Fin S200000x256.rank)
  bcast_S_S20000x256 : S_.BroadcastsInDim S20000x256 (![] : Fin 0 → Fin S20000x256.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x256_0_1 : S20000x1.BroadcastsInDim S20000x256 (![0, 1] : Fin 2 → Fin S20000x256.rank)
  slices_S200000x256_S20000x256_0_0 : S200000x256.Slices ![0, 0] S20000x256
  bcast_S1x256_S20000x256_0_1 : S1x256.BroadcastsInDim S20000x256 (![0, 1] : Fin 2 → Fin S20000x256.rank)
  bcast_S_S20480 : S_.BroadcastsInDim S20480 (![] : Fin 0 → Fin S20480.rank)
  bcast_S20480_S20480x1_0 : S20480.BroadcastsInDim S20480x1 (![0] : Fin 1 → Fin S20480x1.rank)
  bcast_S_S2048x256 : S_.BroadcastsInDim S2048x256 (![] : Fin 0 → Fin S2048x256.rank)
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x256_0_1 : S2048x1.BroadcastsInDim S2048x256 (![0, 1] : Fin 2 → Fin S2048x256.rank)
  slices_S20000x256_S2048x256_0_0 : S20000x256.Slices ![0, 0] S2048x256
  bcast_S47_S1x47_1 : S47.BroadcastsInDim S1x47 (![1] : Fin 1 → Fin S1x47.rank)
  bcast_S1x47_S2048x47_0_1 : S1x47.BroadcastsInDim S2048x47 (![0, 1] : Fin 2 → Fin S2048x47.rank)
  gather_S1000000x128_S2000000x1_S2000000x128_1_0_n_n_0_1_1128_wf : GatherDims.WF S1000000x128 S2000000x1 S2000000x128 [1] [0] [] [0] [] 1 ![1, 128]
  scatter_S200000x128_S2000000x1_S2000000x128_1_0_0_1_wf : ScatterDims.WF S200000x128 S2000000x1 S2000000x128 [1] [0] [0] 1
  scatter_S200000_S2000000x1_S2000000_n_0_0_1_wf : ScatterDims.WF S200000 S2000000x1 S2000000 [] [0] [0] 1
  dot_S200000x128_S128x256_S200000x256_1_0_0_1_n_n_wf : DotDims.WF S200000x128 S128x256 S200000x256 [1] [0] [0] [1] [] []
  gather_S200000x256_S200000x1_S200000x256_1_0_n_n_0_1_1256_wf : GatherDims.WF S200000x256 S200000x1 S200000x256 [1] [0] [] [0] [] 1 ![1, 256]
  scatter_S20000x256_S200000x1_S200000x256_1_0_0_1_wf : ScatterDims.WF S20000x256 S200000x1 S200000x256 [1] [0] [0] 1
  scatter_S20000_S200000x1_S200000_n_0_0_1_wf : ScatterDims.WF S20000 S200000x1 S200000 [] [0] [0] 1
  dot_S20000x256_S256x256_S20000x256_1_0_0_1_n_n_wf : DotDims.WF S20000x256 S256x256 S20000x256 [1] [0] [0] [1] [] []
  gather_S20000x256_S20480x1_S20480x256_1_0_n_n_0_1_1256_wf : GatherDims.WF S20000x256 S20480x1 S20480x256 [1] [0] [] [0] [] 1 ![1, 256]
  scatter_S2048x256_S20480x1_S20480x256_1_0_0_1_wf : ScatterDims.WF S2048x256 S20480x1 S20480x256 [1] [0] [0] 1
  scatter_S2048_S20480x1_S20480_n_0_0_1_wf : ScatterDims.WF S2048 S20480x1 S20480 [] [0] [0] 1
  dot_S2048x256_S256x47_S2048x47_1_0_0_1_n_n_wf : DotDims.WF S2048x256 S256x47 S2048x47 [1] [0] [0] [1] [] []

variable [Facts₀]

def gather_S1000000x128_S2000000x1_S2000000x128_1_0_n_n_0_1_1128 : GatherDims S1000000x128 S2000000x1 S2000000x128 where
  offsetDims := [1]
  collapsedSliceDims := [0]
  operandBatchingDims := []
  startIndicesBatchingDims := []
  startIndexMap := [0]
  indexVectorDim := 1
  sliceSizes := ![1, 128]
  wf := gather_S1000000x128_S2000000x1_S2000000x128_1_0_n_n_0_1_1128_wf
def scatter_S200000x128_S2000000x1_S2000000x128_1_0_0_1 : ScatterDims S200000x128 S2000000x1 S2000000x128 where
  updateWindowDims := [1]
  insertedWindowDims := [0]
  scatterDimsToOperandDims := [0]
  indexVectorDim := 1
  wf := scatter_S200000x128_S2000000x1_S2000000x128_1_0_0_1_wf
def scatter_S200000_S2000000x1_S2000000_n_0_0_1 : ScatterDims S200000 S2000000x1 S2000000 where
  updateWindowDims := []
  insertedWindowDims := [0]
  scatterDimsToOperandDims := [0]
  indexVectorDim := 1
  wf := scatter_S200000_S2000000x1_S2000000_n_0_0_1_wf
def dot_S200000x128_S128x256_S200000x256_1_0_0_1_n_n : DotDims S200000x128 S128x256 S200000x256 where
  lhsContracting := [1]
  rhsContracting := [0]
  lhsNonContracting := [0]
  rhsNonContracting := [1]
  lhsBatch := []
  rhsBatch := []
  wf := dot_S200000x128_S128x256_S200000x256_1_0_0_1_n_n_wf
def gather_S200000x256_S200000x1_S200000x256_1_0_n_n_0_1_1256 : GatherDims S200000x256 S200000x1 S200000x256 where
  offsetDims := [1]
  collapsedSliceDims := [0]
  operandBatchingDims := []
  startIndicesBatchingDims := []
  startIndexMap := [0]
  indexVectorDim := 1
  sliceSizes := ![1, 256]
  wf := gather_S200000x256_S200000x1_S200000x256_1_0_n_n_0_1_1256_wf
def scatter_S20000x256_S200000x1_S200000x256_1_0_0_1 : ScatterDims S20000x256 S200000x1 S200000x256 where
  updateWindowDims := [1]
  insertedWindowDims := [0]
  scatterDimsToOperandDims := [0]
  indexVectorDim := 1
  wf := scatter_S20000x256_S200000x1_S200000x256_1_0_0_1_wf
def scatter_S20000_S200000x1_S200000_n_0_0_1 : ScatterDims S20000 S200000x1 S200000 where
  updateWindowDims := []
  insertedWindowDims := [0]
  scatterDimsToOperandDims := [0]
  indexVectorDim := 1
  wf := scatter_S20000_S200000x1_S200000_n_0_0_1_wf
def dot_S20000x256_S256x256_S20000x256_1_0_0_1_n_n : DotDims S20000x256 S256x256 S20000x256 where
  lhsContracting := [1]
  rhsContracting := [0]
  lhsNonContracting := [0]
  rhsNonContracting := [1]
  lhsBatch := []
  rhsBatch := []
  wf := dot_S20000x256_S256x256_S20000x256_1_0_0_1_n_n_wf
def gather_S20000x256_S20480x1_S20480x256_1_0_n_n_0_1_1256 : GatherDims S20000x256 S20480x1 S20480x256 where
  offsetDims := [1]
  collapsedSliceDims := [0]
  operandBatchingDims := []
  startIndicesBatchingDims := []
  startIndexMap := [0]
  indexVectorDim := 1
  sliceSizes := ![1, 256]
  wf := gather_S20000x256_S20480x1_S20480x256_1_0_n_n_0_1_1256_wf
def scatter_S2048x256_S20480x1_S20480x256_1_0_0_1 : ScatterDims S2048x256 S20480x1 S20480x256 where
  updateWindowDims := [1]
  insertedWindowDims := [0]
  scatterDimsToOperandDims := [0]
  indexVectorDim := 1
  wf := scatter_S2048x256_S20480x1_S20480x256_1_0_0_1_wf
def scatter_S2048_S20480x1_S20480_n_0_0_1 : ScatterDims S2048 S20480x1 S20480 where
  updateWindowDims := []
  insertedWindowDims := [0]
  scatterDimsToOperandDims := [0]
  indexVectorDim := 1
  wf := scatter_S2048_S20480x1_S20480_n_0_0_1_wf
def dot_S2048x256_S256x47_S2048x47_1_0_0_1_n_n : DotDims S2048x256 S256x47 S2048x47 where
  lhsContracting := [1]
  rhsContracting := [0]
  lhsNonContracting := [0]
  rhsNonContracting := [1]
  lhsBatch := []
  rhsBatch := []
  wf := dot_S2048x256_S256x47_S2048x47_1_0_0_1_n_n_wf

class Facts : Prop extends Facts₀ where

variable [Facts]
-- ==== Proof.Region2.lean ====
/-
  Region 2 of the kernel program (the last layer's dense step, which has no maximum with zero), at the extended reals.

  The one grid point t stages rows [2048·t, 2048·t + 2048), which is all 2048 rows, of the two padded feature arrays and the whole of the two
  weight arrays and of the bias row, and writes back rows [2048·t, 2048·t + 2048) of the output. Entry (p, q) of the block
  it writes is  Σ_k hd(p,k)·ws(k,q) + Σ_k hn(p,k)·wn(k,q) + b(0,q) :  each product of two matrices into a zero
  accumulator is the plain sum over the contracted axis, the change of float format is the identity on extended reals,
  the bias row is repeated down the rows. The one block is the output array, so after the region the array holds,
  at (r, q), that expression of row r of the two feature arrays as the region found them.
-/
import proofs.«130816_j76673756168338_1_alg».proof.Proof.Gen.KernelIdeal.Frame
import Idealize.ShloMosaic.Lib.ValueIdx
import Idealize.ShloMosaic.Lib.Pipeline.Value
import Idealize.ShloMosaic.PureOps.Ideal.Laws

set_option maxRecDepth 16384

noncomputable section

namespace Cert.KernelIdeal.Region2

open Cert.KernelIdeal Cert.KernelIdeal.Gen Idealize.ShloMosaic Idealize.ShloMosaic.TcCoe Idealize.SL.Sem
open Idealize.ShloMosaic.ValueIdx
open Idealize.ShloMosaic.Pipeline (Dat Cfg Window)

/-! ## One product of two matrices, read at an entry -/

theorem lhs_axis0 (i : S2048x47.Idx) (q : dot_S2048x256_S256x47_S2048x47_1_0_0_1_n_n.contr.Idx) :
    (dot_S2048x256_S256x47_S2048x47_1_0_0_1_n_n.lhsIdx i q 0).val = (i 0).val := by
  unfold DotDims.lhsIdx
  rw [dif_neg (show ¬(0 : Fin S2048x256.rank) ∈ dot_S2048x256_S256x47_S2048x47_1_0_0_1_n_n.lhsBatch by decide), dif_pos (show (0 : Fin S2048x256.rank) ∈ dot_S2048x256_S256x47_S2048x47_1_0_0_1_n_n.lhsNonContracting by decide)]
  rfl
theorem lhs_axis1 (i : S2048x47.Idx) (q : dot_S2048x256_S256x47_S2048x47_1_0_0_1_n_n.contr.Idx) :
    (dot_S2048x256_S256x47_S2048x47_1_0_0_1_n_n.lhsIdx i q 1).val = (q ⟨0, by decide⟩).val :=
  dot_S2048x256_S256x47_S2048x47_1_0_0_1_n_n.lhsIdx_val_of_single rfl i q
theorem rhs_axis0 (i : S2048x47.Idx) (q : dot_S2048x256_S256x47_S2048x47_1_0_0_1_n_n.contr.Idx) :
    (dot_S2048x256_S256x47_S2048x47_1_0_0_1_n_n.rhsIdx i q 0).val = (q ⟨0, by decide⟩).val :=
  dot_S2048x256_S256x47_S2048x47_1_0_0_1_n_n.rhsIdx_val_of_single rfl i q
theorem rhs_axis1 (i : S2048x47.Idx) (q : dot_S2048x256_S256x47_S2048x47_1_0_0_1_n_n.contr.Idx) :
    (dot_S2048x256_S256x47_S2048x47_1_0_0_1_n_n.rhsIdx i q 1).val = (i 1).val := by
  unfold DotDims.rhsIdx
  rw [dif_neg (show ¬(1 : Fin S256x47.rank) ∈ dot_S2048x256_S256x47_S2048x47_1_0_0_1_n_n.rhsBatch by decide), dif_pos (show (1 : Fin S256x47.rank) ∈ dot_S2048x256_S256x47_S2048x47_1_0_0_1_n_n.rhsNonContracting by decide)]
  rfl

/-- Entry (p, q) of a product into the zero accumulator is the sum over the contracted axis. -/
theorem matmul_entry (l : FVec Ideal S2048x256 .bf16) (r : FVec Ideal S256x47 .bf16) (p : Fin 2048) (q : Fin 47) :
    matmul dot_S2048x256_S256x47_S2048x47_1_0_0_1_n_n none l r (constant S2048x47 .f32 0x00000000#32) (ix2 p q)
      = ∑ k : Fin 256, l (ix2 p k) * r (ix2 k q) := by
  simp only [matmul]
  rw [Ideal.matmul_constant_zero_apply, ← Equiv.sum_comp (contrEquiv1 dot_S2048x256_S256x47_S2048x47_1_0_0_1_n_n 256 rfl rfl).symm]
  refine Finset.sum_congr rfl fun k _ => ?_
  have hk := contrEquiv1_symm_val dot_S2048x256_S256x47_S2048x47_1_0_0_1_n_n 256 rfl rfl k
  have el : dot_S2048x256_S256x47_S2048x47_1_0_0_1_n_n.lhsIdx (ix2 p q) ((contrEquiv1 dot_S2048x256_S256x47_S2048x47_1_0_0_1_n_n 256 rfl rfl).symm k) = ix2 p k := funext fun a => Fin.ext (by
    match a with
    | ⟨0, _⟩ => exact lhs_axis0 _ _
    | ⟨1, _⟩ => exact (lhs_axis1 _ _).trans hk)
  have er : dot_S2048x256_S256x47_S2048x47_1_0_0_1_n_n.rhsIdx (ix2 p q) ((contrEquiv1 dot_S2048x256_S256x47_S2048x47_1_0_0_1_n_n 256 rfl rfl).symm k) = ix2 k q := funext fun a => Fin.ext (by
    match a with
    | ⟨0, _⟩ => exact (rhs_axis0 _ _).trans hk
    | ⟨1, _⟩ => exact rhs_axis1 _ _)
  rw [el, er]

/-! ## The body's stored value, read at an entry -/

/-- The bias row repeated down the rows, read at (p, q). -/
theorem bias_entry (x4 : FVec Ideal S1x47 .f32) (p : Fin 2048) (q : Fin 47) :
    broadcastTo S2048x47 x4 broadcasts_S1x47_S2048x47 (ix2 p q) = x4 (ix2 0 q) :=
  broadcastTo_apply x4 broadcasts_S1x47_S2048x47 (ix2 p q) (ix2 0 q) (fun a => by
    match a with
    | ⟨0, _⟩ => rfl
    | ⟨1, _⟩ => rfl)

/-- What the body stores, at (p, q): the two sums and the bias. -/
theorem pay_entry (x0 x1 : Vec Ideal S2048x256 .f32) (x2 x3 : Vec Ideal S256x47 .bf16) (x4 : Vec Ideal S1x47 .f32)
    (p : Fin 2048) (q : Fin 47) :
    k2_pay1 (F := Ideal) x0 x1 x2 x3 x4 (ix2 p q)
      = (∑ k : Fin 256, x0 (ix2 p k) * x2 (ix2 k q)) + (∑ k : Fin 256, x1 (ix2 p k) * x3 (ix2 k q)) + x4 (ix2 0 q) := by
  unfold k2_pay1
  simp only [shapeCast_self]
  rw [addf_apply, addf_apply, matmul_entry, matmul_entry, bias_entry]
  rfl

/-! ## The output array as one function of the arrays the region finds -/

/-- Entry (r, q) of the dense step over whole arrays: row r of the two feature arrays against column q of the two
    weight arrays, plus the bias at q. -/
def G (a0 a1 : Vec Ideal S2048x256 .f32) (a2 a3 : Vec Ideal S256x47 .bf16) (a4 : Vec Ideal S1x47 .f32) :
    Vec Ideal S2048x47 .f32 := fun i =>
  (∑ k : Fin 256, a0 (ix2 (⟨(i 0).val, (i 0).isLt⟩ : Fin 2048) k) * a2 (ix2 k (⟨(i 1).val, (i 1).isLt⟩ : Fin 47)))
      + (∑ k : Fin 256, a1 (ix2 (⟨(i 0).val, (i 0).isLt⟩ : Fin 2048) k) * a3 (ix2 k (⟨(i 1).val, (i 1).isLt⟩ : Fin 47)))
      + a4 (ix2 0 (⟨(i 1).val, (i 1).isLt⟩ : Fin 47))

variable (V : (c : Dev nD) → (b : Ref sig .tc) → Buf (Elt Ideal) ((c : Thread nD τ).loc b))

/-- The five arrays the region reads, as it finds them, at their literal shapes. -/
abbrev arr0 (c : Dev nD) : Vec Ideal S2048x256 .f32 := V c (Pipeline.arrRef spec2 0)
abbrev arr1 (c : Dev nD) : Vec Ideal S2048x256 .f32 := V c (Pipeline.arrRef spec2 1)
abbrev arr2 (c : Dev nD) : Vec Ideal S256x47 .bf16 := V c (Pipeline.arrRef spec2 2)
abbrev arr3 (c : Dev nD) : Vec Ideal S256x47 .bf16 := V c (Pipeline.arrRef spec2 3)
abbrev arr4 (c : Dev nD) : Vec Ideal S1x47 .f32 := V c (Pipeline.arrRef spec2 4)

theorem hz : (![0, 0] : Fin 2 → Nat) = fun _ => 0 := funext fun a => by fin_cases a <;> rfl

/-- The printed index maps over the one point: the two feature windows and the output window move together down the
    rows, block t at block row t; the weight and bias windows stay at block (0, 0). -/
theorem idx_facts : ∀ t : Fin cfg2.N, win2_5.index t (0 : Fin 2) = t.val ∧ win2_5.index t (1 : Fin 2) = 0
    ∧ win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

/-- A feature window's block at point t, read at (p, k), is the array at row 2048·t + p. -/
theorem read_feat0 (c : Dev nD) (t : Fin cfg2.N) (p : Fin 2048) (k : Fin 256) (r : Fin 2048) (hr : r.val = t.val * 2048 + p.val) :
    iblk2 V c 0 t (ix2 p k) = arr0 V c (ix2 r k) := by
  show V c (Pipeline.arrRef spec2 0) (((cfg2.win 0).blk t).view.emb (ix2 p k)) = V c (Pipeline.arrRef spec2 0) (ix2 r k)
  refine congrArg _ (funext fun a => Fin.ext ?_)
  obtain ⟨-, -, e0, e1, -⟩ := idx_facts t
  match a with
  | ⟨0, _⟩ => show win2_0.index t (0 : Fin 2) * 2048 + 1 * p.val = r.val; omega
  | ⟨1, _⟩ => show win2_0.index t (1 : Fin 2) * 256 + 1 * k.val = k.val; omega
theorem read_feat1 (c : Dev nD) (t : Fin cfg2.N) (p : Fin 2048) (k : Fin 256) (r : Fin 2048) (hr : r.val = t.val * 2048 + p.val) :
    iblk2 V c 1 t (ix2 p k) = arr1 V c (ix2 r k) := by
  show V c (Pipeline.arrRef spec2 1) (((cfg2.win 1).blk t).view.emb (ix2 p k)) = V c (Pipeline.arrRef spec2 1) (ix2 r k)
  refine congrArg _ (funext fun a => Fin.ext ?_)
  obtain ⟨-, -, -, -, e0, e1, -⟩ := idx_facts t
  match a with
  | ⟨0, _⟩ => show win2_1.index t (0 : Fin 2) * 2048 + 1 * p.val = r.val; omega
  | ⟨1, _⟩ => show win2_1.index t (1 : Fin 2) * 256 + 1 * k.val = k.val; omega
/-- A weight window's one block is the whole weight array. -/
theorem read_w2 (c : Dev nD) (t : Fin cfg2.N) (k : Fin 256) (q : Fin 47) :
    iblk2 V c 2 t (ix2 k q) = arr2 V c (ix2 k q) := by
  show V c (Pipeline.arrRef spec2 2) (((cfg2.win 2).blk t).view.emb (ix2 k q)) = V c (Pipeline.arrRef spec2 2) (ix2 k q)
  refine congrArg _ (funext fun a => Fin.ext ?_)
  obtain ⟨-, -, -, -, -, -, e0, e1, -⟩ := idx_facts t
  match a with
  | ⟨0, _⟩ => show win2_2.index t (0 : Fin 2) * 256 + 1 * k.val = k.val; omega
  | ⟨1, _⟩ => show win2_2.index t (1 : Fin 2) * 47 + 1 * q.val = q.val; omega
theorem read_w3 (c : Dev nD) (t : Fin cfg2.N) (k : Fin 256) (q : Fin 47) :
    iblk2 V c 3 t (ix2 k q) = arr3 V c (ix2 k q) := by
  show V c (Pipeline.arrRef spec2 3) (((cfg2.win 3).blk t).view.emb (ix2 k q)) = V c (Pipeline.arrRef spec2 3) (ix2 k q)
  refine congrArg _ (funext fun a => Fin.ext ?_)
  obtain ⟨-, -, -, -, -, -, -, -, e0, e1, -⟩ := idx_facts t
  match a with
  | ⟨0, _⟩ => show win2_3.index t (0 : Fin 2) * 256 + 1 * k.val = k.val; omega
  | ⟨1, _⟩ => show win2_3.index t (1 : Fin 2) * 47 + 1 * q.val = q.val; omega
/-- The bias window's one block is the whole bias row. -/
theorem read_b4 (c : Dev nD) (t : Fin cfg2.N) (q : Fin 47) :
    iblk2 V c 4 t (ix2 (0 : Fin 1) q) = arr4 V c (ix2 (0 : Fin 1) q) := by
  show V c (Pipeline.arrRef spec2 4) (((cfg2.win 4).blk t).view.emb (ix2 (0 : Fin 1) q)) = V c (Pipeline.arrRef spec2 4) (ix2 (0 : Fin 1) q)
  refine congrArg _ (funext fun a => Fin.ext ?_)
  obtain ⟨-, -, -, -, -, -, -, -, -, -, e0, e1⟩ := idx_facts t
  match a with
  | ⟨0, _⟩ => show win2_4.index t (0 : Fin 2) * 1 + 1 * (0 : Fin 1).val = (0 : Fin 1).val; omega
  | ⟨1, _⟩ => show win2_4.index t (1 : Fin 2) * 47 + 1 * q.val = q.val; omega

/-- WHAT POINT t WRITES BACK is block t of `G` of the arrays as the region finds them. -/
theorem flushed_eq (c : Dev nD) (t : Fin cfg2.N) :
    (dat2 V c).flushed 5 t = ((cfg2.win 5).blk t).view.read (Elt Ideal) (G (arr0 V c) (arr1 V c) (arr2 V c) (arr3 V c) (arr4 V c)) := by
  show (cfg2.win 5).cut (grid2.coords t) ((dat2 V c).after 5 t) = _
  rw [after2_5]
  unfold out2_5
  rw [View.canon_unit_zero hz]
  simp only [View.ld_unit_zero (S := S2048x256) hz, View.ld_unit_zero (S := S256x47) hz, View.ld_unit_zero (S := S1x47) hz]
  funext j
  obtain ⟨p, q, rfl⟩ : ∃ (p : Fin 2048) (q : Fin 47), j = ix2 p q := ⟨j 0, j 1, eq_ix2 j⟩
  obtain ⟨e0, e1, -⟩ := idx_facts t
  have hrow : (((cfg2.win 5).blk t).view.emb (ix2 p q) 0).val = t.val * 2048 + p.val := by
    show win2_5.index t (0 : Fin 2) * 2048 + 1 * p.val = _; omega
  have hcol : (((cfg2.win 5).blk t).view.emb (ix2 p q) 1).val = q.val := by
    show win2_5.index t (1 : Fin 2) * 47 + 1 * q.val = _; omega
  show k2_pay1 (F := Ideal) (iblk2 V c 0 t) (iblk2 V c 1 t) (iblk2 V c 2 t) (iblk2 V c 3 t) (iblk2 V c 4 t) (ix2 p q)
    = G (arr0 V c) (arr1 V c) (arr2 V c) (arr3 V c) (arr4 V c) (((cfg2.win 5).blk t).view.emb (ix2 p q))
  refine (pay_entry (iblk2 V c 0 t) (iblk2 V c 1 t) (iblk2 V c 2 t) (iblk2 V c 3 t) (iblk2 V c 4 t) p q).trans ?_
  unfold G
  have hq : (⟨(((cfg2.win 5).blk t).view.emb (ix2 p q) 1).val, (((cfg2.win 5).blk t).view.emb (ix2 p q) 1).isLt⟩ : Fin 47) = q := Fin.ext hcol
  rw [hq]
  refine congrArg₂ (· + ·) (congrArg₂ (· + ·) ?_ ?_) (read_b4 V c t q)
  · exact Finset.sum_congr rfl fun k _ => congrArg₂ (· * ·) (read_feat0 V c t p k _ hrow) (read_w2 V c t k q)
  · exact Finset.sum_congr rfl fun k _ => congrArg₂ (· * ·) (read_feat1 V c t p k _ hrow) (read_w3 V c t k q)

/-- An index of the output array is in point t's block iff its row is in [2048·t, 2048·t + 2048). -/
theorem mem_blk (t : Fin cfg2.N) (i : S2048x47.Idx) :
    i ∈ ((cfg2.win 5).blk t).view.set ↔ ∀ a : Fin 2, win2_5.index t a * S2048x47.size a ≤ (i a).val ∧ (i a).val < win2_5.index t a * S2048x47.size a + S2048x47.size a := by
  show i ∈ ((View.whole main_v0).slice (win2_5.rect t)).set ↔ _
  rw [View.set_slice_whole, Rect.mem_set_unit]
  exact Iff.rfl

/-- The one block covers the output array: row r is in block r / 2048 = 0. -/
theorem cover (i : S2048x47.Idx) : ∃ t : Fin cfg2.N, (cfg2.win 5).flush t = true ∧ i ∈ ((cfg2.win 5).blk t).view.set := by
  have hi0 : (i 0).val < 2048 := (i 0).isLt
  have hi1 : (i 1).val < 47 := (i 1).isLt
  refine ⟨⟨(i 0).val / 2048, by show (i 0).val / 2048 < 1; omega⟩, flush2_5 _, ?_⟩
  rw [mem_blk]
  obtain ⟨e0, e1, -⟩ := idx_facts ⟨(i 0).val / 2048, by show (i 0).val / 2048 < 1; omega⟩
  intro a
  match a with
  | ⟨0, _⟩ => show win2_5.index _ (0 : Fin 2) * 2048 ≤ (i 0).val ∧ (i 0).val < win2_5.index _ (0 : Fin 2) * 2048 + 2048; rw [e0]; show (i 0).val / 2048 * 2048 ≤ (i 0).val ∧ (i 0).val < (i 0).val / 2048 * 2048 + 2048; omega
  | ⟨1, _⟩ => show win2_5.index _ (1 : Fin 2) * 47 ≤ (i 1).val ∧ (i 1).val < win2_5.index _ (1 : Fin 2) * 47 + 47; rw [e1]; omega

/-- THE OUTPUT ARRAY after the region: `G` of the five arrays the region found. -/
theorem arr_out (c : Dev nD) :
    (dat2 V c).arrAt 5 cfg2.N = G (arr0 V c) (arr1 V c) (arr2 V c) (arr3 V c) (arr4 V c) :=
  (dat2 V c).arrAt_eq_of_cover 5 _ (fun t _ => flushed_eq V c t) cover

end Cert.KernelIdeal.Region2

end
-- ==== Proof.Dense2.lean ====
/-
  The last layer's dense step: the kernel's one block against the reference's whole-array form.

  The last layer has 2048 destination rows, one block of 2048 rows: nothing is padded and nothing is cut off afterwards, and
  there is no maximum with zero. The weights pass through a change of float format (the identity on extended reals) and the
  bias through a reshape to one row, so entry (r, q) of the region's output is
      Σ_k hd(r,k)·Ws(k,q) + Σ_k hn(r,k)·Wn(k,q) + b(q),
  which is what the reference's two dot products and its two sums with the repeated bias give there. The feature arrays
  (the leading rows of the second layer's output and its neighbour mean) enter only through their entries.
-/
import proofs.«130816_j76673756168338_1_alg».proof.Proof.Region2
import proofs.«130816_j76673756168338_1_alg».proof.Proof.Gen.ReferenceIdeal.Read

set_option maxRecDepth 16384

noncomputable section

namespace Cert.KernelIdeal.Dense2

open Cert.KernelIdeal Cert.KernelIdeal.Gen Idealize.ShloMosaic Idealize.ShloMosaic.TcCoe Idealize.SL.Sem
open Idealize.ShloMosaic.ValueIdx
open Cert.ReferenceIdeal.Read

/-- The bias reshaped to one row, read at (0, q). -/
theorem bias_row (b : Vec Ideal S47 .f32) (q : Fin 47) (j : S47.Idx) (hj : (j 0).val = q.val) :
    shapeCast S1x47 b shapeCasts_S47_S1x47 (ix2 (0 : Fin 1) q) = b j :=
  shapeCast_apply b shapeCasts_S47_S1x47 (ix2 (0 : Fin 1) q) j (by
    rw [Shape.rowMajor_val_one, Shape.rowMajor_val_two]
    show (j 0).val = (0 : Fin 1).val * 47 + q.val
    simp [hj])

theorem dense_eq (x0 : Vec Ideal S1000000x128 .f32) (x1 x2 : Vec Ideal S2000000 .i32) (x3 x4 : Vec Ideal S200000 .i32) (x5 x6 : Vec Ideal S20480 .i32)
    (x7 x8 : Vec Ideal S128x256 .f32) (x9 : Vec Ideal S256 .f32) (x10 x11 : Vec Ideal S256x256 .f32) (x12 : Vec Ideal S256 .f32)
    (x13 x14 : FVec Ideal S256x47 .f32) (x15 : Vec Ideal S47 .f32) :
    Region2.G (val_main_v73 (F := Ideal) x0 x1 x2 x3 x4 x7 x8 x9 x10 x11 x12)
        (val_main_v72 (F := Ideal) x0 x1 x2 x3 x4 x5 x6 x7 x8 x9 x10 x11 x12)
        (truncf .bf16 x13 bitsLt_bf16_f32 : FVec Ideal S256x47 .bf16) (truncf .bf16 x14 bitsLt_bf16_f32 : FVec Ideal S256x47 .bf16)
        (shapeCast S1x47 x15 shapeCasts_S47_S1x47)
      = val_main_v79 (F := Ideal) x0 x1 x2 x3 x4 x5 x6 x7 x8 x9 x10 x11 x12 x13 x14 x15 := by
  funext i
  obtain ⟨r, q, rfl⟩ : ∃ (r : Fin 2048) (q : Fin 47), i = ix2 r q := ⟨i 0, i 1, eq_ix2 i⟩
  rw [val_main_v79_apply, val_main_v76_apply, val_main_v74_apply, val_main_v75_apply, val_main_v78_apply, val_main_v77_apply]
  unfold Region2.G
  refine congrArg₂ (· + ·) (congrArg₂ (· + ·) ?_ ?_) ?_
  · refine Finset.sum_congr rfl fun k _ => congrArg₂ (· * ·) ?_ ?_
    · exact congrArg _ (funext fun a => Fin.ext (by match a with | ⟨0, _⟩ => rfl | ⟨1, _⟩ => rfl))
    · exact congrArg x13 (funext fun a => Fin.ext (by match a with | ⟨0, _⟩ => rfl | ⟨1, _⟩ => rfl))
  · refine Finset.sum_congr rfl fun k _ => congrArg₂ (· * ·) ?_ ?_
    · exact congrArg _ (funext fun a => Fin.ext (by match a with | ⟨0, _⟩ => rfl | ⟨1, _⟩ => rfl))
    · exact congrArg x14 (funext fun a => Fin.ext (by match a with | ⟨0, _⟩ => rfl | ⟨1, _⟩ => rfl))
  · exact bias_row x15 q _ rfl

end Cert.KernelIdeal.Dense2

end
-- ==== Proof.Region1.lean ====
/-
  Region 1 of the kernel program (the second layer's dense step), at the extended reals.

  One grid point t of 10 stages rows [2048·t, 2048·t + 2048) of the two padded feature arrays and the whole of the two
  weight arrays and of the bias row, and writes back rows [2048·t, 2048·t + 2048) of the output. Entry (p, q) of the block
  it writes is  max (Σ_k hd(p,k)·ws(k,q) + Σ_k hn(p,k)·wn(k,q) + b(0,q)) 0 :  each product of two matrices into a zero
  accumulator is the plain sum over the contracted axis, the change of float format is the identity on extended reals,
  the bias row is repeated down the rows. The 10 blocks tile the output array, so after the region the array holds,
  at (r, q), that expression of row r of the two feature arrays as the region found them.
-/
import proofs.«130816_j76673756168338_1_alg».proof.Proof.Gen.KernelIdeal.Frame
import Idealize.ShloMosaic.Lib.ValueIdx
import Idealize.ShloMosaic.Lib.Pipeline.Value
import Idealize.ShloMosaic.PureOps.Ideal.Laws

set_option maxRecDepth 16384

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat Cfg Window)

/-! ## One product of two matrices, read at an entry -/

theorem lhs_axis0 (i : S2048x256.Idx) (q : dot_S2048x256_S256x256_S2048x256_1_0_0_1_n_n.contr.Idx) :
    (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
  rfl
theorem lhs_axis1 (i : S2048x256.Idx) (q : dot_S2048x256_S256x256_S2048x256_1_0_0_1_n_n.contr.Idx) :
    (dot_S2048x256_S256x256_S2048x256_1_0_0_1_n_n.lhsIdx i q 1).val = (q ⟨0, by decide⟩).val :=
  dot_S2048x256_S256x256_S2048x256_1_0_0_1_n_n.lhsIdx_val_of_single rfl i q
theorem rhs_axis0 (i : S2048x256.Idx) (q : dot_S2048x256_S256x256_S2048x256_1_0_0_1_n_n.contr.Idx) :
    (dot_S2048x256_S256x256_S2048x256_1_0_0_1_n_n.rhsIdx i q 0).val = (q ⟨0, by decide⟩).val :=
  dot_S2048x256_S256x256_S2048x256_1_0_0_1_n_n.rhsIdx_val_of_single rfl i q
theorem rhs_axis1 (i : S2048x256.Idx) (q : dot_S2048x256_S256x256_S2048x256_1_0_0_1_n_n.contr.Idx) :
    (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
  rfl

/-- Entry (p, q) of a product into the zero accumulator is the sum over the contracted axis. -/
theorem matmul_entry (l : FVec Ideal S2048x256 .bf16) (r : FVec Ideal S256x256 .bf16) (p : Fin 2048) (q : Fin 256) :
    matmul dot_S2048x256_S256x256_S2048x256_1_0_0_1_n_n none l r (constant S2048x256 .f32 0x00000000#32) (ix2 p q)
      = ∑ k : Fin 256, l (ix2 p k) * r (ix2 k q) := by
  simp only [matmul]
  rw [Ideal.matmul_constant_zero_apply, ← Equiv.sum_comp (contrEquiv1 dot_S2048x256_S256x256_S2048x256_1_0_0_1_n_n 256 rfl rfl).symm]
  refine Finset.sum_congr rfl fun k _ => ?_
  have hk := contrEquiv1_symm_val dot_S2048x256_S256x256_S2048x256_1_0_0_1_n_n 256 rfl rfl k
  have el : dot_S2048x256_S256x256_S2048x256_1_0_0_1_n_n.lhsIdx (ix2 p q) ((contrEquiv1 dot_S2048x256_S256x256_S2048x256_1_0_0_1_n_n 256 rfl rfl).symm k) = ix2 p k := funext fun a => Fin.ext (by
    match a with
    | ⟨0, _⟩ => exact lhs_axis0 _ _
    | ⟨1, _⟩ => exact (lhs_axis1 _ _).trans hk)
  have er : dot_S2048x256_S256x256_S2048x256_1_0_0_1_n_n.rhsIdx (ix2 p q) ((contrEquiv1 dot_S2048x256_S256x256_S2048x256_1_0_0_1_n_n 256 rfl rfl).symm k) = ix2 k q := funext fun a => Fin.ext (by
    match a with
    | ⟨0, _⟩ => exact (rhs_axis0 _ _).trans hk
    | ⟨1, _⟩ => exact rhs_axis1 _ _)
  rw [el, er]

/-! ## The body's stored value, read at an entry -/

/-- The bias row repeated down the rows, read at (p, q). -/
theorem bias_entry (x4 : FVec Ideal S1x256 .f32) (p : Fin 2048) (q : Fin 256) :
    broadcastTo S2048x256 x4 broadcasts_S1x256_S2048x256 (ix2 p q) = x4 (ix2 0 q) :=
  broadcastTo_apply x4 broadcasts_S1x256_S2048x256 (ix2 p q) (ix2 0 q) (fun a => by
    match a with
    | ⟨0, _⟩ => rfl
    | ⟨1, _⟩ => rfl)

/-- What the body stores, at (p, q): the two sums, the bias, and the maximum with zero. -/
theorem pay_entry (x0 x1 : Vec Ideal S2048x256 .f32) (x2 x3 : Vec Ideal S256x256 .bf16) (x4 : Vec Ideal S1x256 .f32)
    (p : Fin 2048) (q : Fin 256) :
    k1_pay1 (F := Ideal) x0 x1 x2 x3 x4 (ix2 p q)
      = max ((∑ k : Fin 256, x0 (ix2 p k) * x2 (ix2 k q)) + (∑ k : Fin 256, x1 (ix2 p k) * x3 (ix2 k q)) + x4 (ix2 0 q))
          (Ideal.ofBits .f32 0x00000000#32) := by
  unfold k1_pay1
  simp only [shapeCast_self]
  rw [maximumf_apply, addf_apply, addf_apply, matmul_entry, matmul_entry, bias_entry]
  rfl

/-! ## The output array as one function of the arrays the region finds -/

/-- Entry (r, q) of the dense step over whole arrays: row r of the two feature arrays against column q of the two
    weight arrays, plus the bias at q, cut below at zero. -/
def G (a0 a1 : Vec Ideal S20480x256 .f32) (a2 a3 : Vec Ideal S256x256 .bf16) (a4 : Vec Ideal S1x256 .f32) :
    Vec Ideal S20480x256 .f32 := fun i =>
  max ((∑ k : Fin 256, a0 (ix2 (⟨(i 0).val, (i 0).isLt⟩ : Fin 20480) k) * a2 (ix2 k (⟨(i 1).val, (i 1).isLt⟩ : Fin 256)))
      + (∑ k : Fin 256, a1 (ix2 (⟨(i 0).val, (i 0).isLt⟩ : Fin 20480) k) * a3 (ix2 k (⟨(i 1).val, (i 1).isLt⟩ : Fin 256)))
      + a4 (ix2 0 (⟨(i 1).val, (i 1).isLt⟩ : Fin 256)))
    (Ideal.ofBits .f32 0x00000000#32)

variable (V : (c : Dev nD) → (b : Ref sig .tc) → Buf (Elt Ideal) ((c : Thread nD τ).loc b))

/-- The five arrays the region reads, as it finds them, at their literal shapes. -/
abbrev arr0 (c : Dev nD) : Vec Ideal S20480x256 .f32 := V c (Pipeline.arrRef spec1 0)
abbrev arr1 (c : Dev nD) : Vec Ideal S20480x256 .f32 := V c (Pipeline.arrRef spec1 1)
abbrev arr2 (c : Dev nD) : Vec Ideal S256x256 .bf16 := V c (Pipeline.arrRef spec1 2)
abbrev arr3 (c : Dev nD) : Vec Ideal S256x256 .bf16 := V c (Pipeline.arrRef spec1 3)
abbrev arr4 (c : Dev nD) : Vec Ideal S1x256 .f32 := V c (Pipeline.arrRef spec1 4)

theorem hz : (![0, 0] : Fin 2 → Nat) = fun _ => 0 := funext fun a => by fin_cases a <;> rfl

/-- The printed index maps over the 10 points: the two feature windows and the output window move together down the
    rows, block t at block row t; the weight and bias windows stay at block (0, 0). -/
theorem idx_facts : ∀ t : Fin cfg1.N, win1_5.index t (0 : Fin 2) = t.val ∧ win1_5.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- A feature window's block at point t, read at (p, k), is the array at row 2048·t + p. -/
theorem read_feat0 (c : Dev nD) (t : Fin cfg1.N) (p : Fin 2048) (k : Fin 256) (r : Fin 20480) (hr : r.val = t.val * 2048 + p.val) :
    iblk1 V c 0 t (ix2 p k) = arr0 V c (ix2 r k) := by
  show V c (Pipeline.arrRef spec1 0) (((cfg1.win 0).blk t).view.emb (ix2 p k)) = V c (Pipeline.arrRef spec1 0) (ix2 r k)
  refine congrArg _ (funext fun a => Fin.ext ?_)
  obtain ⟨-, -, e0, e1, -⟩ := idx_facts t
  match a with
  | ⟨0, _⟩ => show win1_0.index t (0 : Fin 2) * 2048 + 1 * p.val = r.val; omega
  | ⟨1, _⟩ => show win1_0.index t (1 : Fin 2) * 256 + 1 * k.val = k.val; omega
theorem read_feat1 (c : Dev nD) (t : Fin cfg1.N) (p : Fin 2048) (k : Fin 256) (r : Fin 20480) (hr : r.val = t.val * 2048 + p.val) :
    iblk1 V c 1 t (ix2 p k) = arr1 V c (ix2 r k) := by
  show V c (Pipeline.arrRef spec1 1) (((cfg1.win 1).blk t).view.emb (ix2 p k)) = V c (Pipeline.arrRef spec1 1) (ix2 r k)
  refine congrArg _ (funext fun a => Fin.ext ?_)
  obtain ⟨-, -, -, -, e0, e1, -⟩ := idx_facts t
  match a with
  | ⟨0, _⟩ => show win1_1.index t (0 : Fin 2) * 2048 + 1 * p.val = r.val; omega
  | ⟨1, _⟩ => show win1_1.index t (1 : Fin 2) * 256 + 1 * k.val = k.val; omega
/-- A weight window's one block is the whole weight array. -/
theorem read_w2 (c : Dev nD) (t : Fin cfg1.N) (k : Fin 256) (q : Fin 256) :
    iblk1 V c 2 t (ix2 k q) = arr2 V c (ix2 k q) := by
  show V c (Pipeline.arrRef spec1 2) (((cfg1.win 2).blk t).view.emb (ix2 k q)) = V c (Pipeline.arrRef spec1 2) (ix2 k q)
  refine congrArg _ (funext fun a => Fin.ext ?_)
  obtain ⟨-, -, -, -, -, -, e0, e1, -⟩ := idx_facts t
  match a with
  | ⟨0, _⟩ => show win1_2.index t (0 : Fin 2) * 256 + 1 * k.val = k.val; omega
  | ⟨1, _⟩ => show win1_2.index t (1 : Fin 2) * 256 + 1 * q.val = q.val; omega
theorem read_w3 (c : Dev nD) (t : Fin cfg1.N) (k : Fin 256) (q : Fin 256) :
    iblk1 V c 3 t (ix2 k q) = arr3 V c (ix2 k q) := by
  show V c (Pipeline.arrRef spec1 3) (((cfg1.win 3).blk t).view.emb (ix2 k q)) = V c (Pipeline.arrRef spec1 3) (ix2 k q)
  refine congrArg _ (funext fun a => Fin.ext ?_)
  obtain ⟨-, -, -, -, -, -, -, -, e0, e1, -⟩ := idx_facts t
  match a with
  | ⟨0, _⟩ => show win1_3.index t (0 : Fin 2) * 256 + 1 * k.val = k.val; omega
  | ⟨1, _⟩ => show win1_3.index t (1 : Fin 2) * 256 + 1 * q.val = q.val; omega
/-- The bias window's one block is the whole bias row. -/
theorem read_b4 (c : Dev nD) (t : Fin cfg1.N) (q : Fin 256) :
    iblk1 V c 4 t (ix2 (0 : Fin 1) q) = arr4 V c (ix2 (0 : Fin 1) q) := by
  show V c (Pipeline.arrRef spec1 4) (((cfg1.win 4).blk t).view.emb (ix2 (0 : Fin 1) q)) = V c (Pipeline.arrRef spec1 4) (ix2 (0 : Fin 1) q)
  refine congrArg _ (funext fun a => Fin.ext ?_)
  obtain ⟨-, -, -, -, -, -, -, -, -, -, e0, e1⟩ := idx_facts t
  match a with
  | ⟨0, _⟩ => show win1_4.index t (0 : Fin 2) * 1 + 1 * (0 : Fin 1).val = (0 : Fin 1).val; omega
  | ⟨1, _⟩ => show win1_4.index t (1 : Fin 2) * 256 + 1 * q.val = q.val; omega

/-- WHAT POINT t WRITES BACK is block t of `G` of the arrays as the region finds them. -/
theorem flushed_eq (c : Dev nD) (t : Fin cfg1.N) :
    (dat1 V c).flushed 5 t = ((cfg1.win 5).blk t).view.read (Elt Ideal) (G (arr0 V c) (arr1 V c) (arr2 V c) (arr3 V c) (arr4 V c)) := by
  show (cfg1.win 5).cut (grid1.coords t) ((dat1 V c).after 5 t) = _
  rw [after1_5]
  unfold out1_5
  rw [View.canon_unit_zero hz]
  simp only [View.ld_unit_zero (S := S2048x256) hz, View.ld_unit_zero (S := S256x256) hz, View.ld_unit_zero (S := S1x256) hz]
  funext j
  obtain ⟨p, q, rfl⟩ : ∃ (p : Fin 2048) (q : Fin 256), j = ix2 p q := ⟨j 0, j 1, eq_ix2 j⟩
  obtain ⟨e0, e1, -⟩ := idx_facts t
  have hrow : (((cfg1.win 5).blk t).view.emb (ix2 p q) 0).val = t.val * 2048 + p.val := by
    show win1_5.index t (0 : Fin 2) * 2048 + 1 * p.val = _; omega
  have hcol : (((cfg1.win 5).blk t).view.emb (ix2 p q) 1).val = q.val := by
    show win1_5.index t (1 : Fin 2) * 256 + 1 * q.val = _; omega
  show k1_pay1 (F := Ideal) (iblk1 V c 0 t) (iblk1 V c 1 t) (iblk1 V c 2 t) (iblk1 V c 3 t) (iblk1 V c 4 t) (ix2 p q)
    = G (arr0 V c) (arr1 V c) (arr2 V c) (arr3 V c) (arr4 V c) (((cfg1.win 5).blk t).view.emb (ix2 p q))
  refine (pay_entry (iblk1 V c 0 t) (iblk1 V c 1 t) (iblk1 V c 2 t) (iblk1 V c 3 t) (iblk1 V c 4 t) p q).trans ?_
  unfold G
  have hq : (⟨(((cfg1.win 5).blk t).view.emb (ix2 p q) 1).val, (((cfg1.win 5).blk t).view.emb (ix2 p q) 1).isLt⟩ : Fin 256) = q := Fin.ext hcol
  rw [hq]
  refine congrArg (fun x => max x _) ?_
  refine congrArg₂ (· + ·) (congrArg₂ (· + ·) ?_ ?_) (read_b4 V c t q)
  · exact Finset.sum_congr rfl fun k _ => congrArg₂ (· * ·) (read_feat0 V c t p k _ hrow) (read_w2 V c t k q)
  · exact Finset.sum_congr rfl fun k _ => congrArg₂ (· * ·) (read_feat1 V c t p k _ hrow) (read_w3 V c t k q)

/-- An index of the output array is in point t's block iff its row is in [2048·t, 2048·t + 2048). -/
theorem mem_blk (t : Fin cfg1.N) (i : S20480x256.Idx) :
    i ∈ ((cfg1.win 5).blk t).view.set ↔ ∀ a : Fin 2, win1_5.index t a * S2048x256.size a ≤ (i a).val ∧ (i a).val < win1_5.index t a * S2048x256.size a + S2048x256.size a := by
  show i ∈ ((View.whole main_call0_v52).slice (win1_5.rect t)).set ↔ _
  rw [View.set_slice_whole, Rect.mem_set_unit]
  exact Iff.rfl

/-- The 10 blocks tile the output array: row r is in block r / 2048. -/
theorem cover (i : S20480x256.Idx) : ∃ t : Fin cfg1.N, (cfg1.win 5).flush t = true ∧ i ∈ ((cfg1.win 5).blk t).view.set := by
  have hi0 : (i 0).val < 20480 := (i 0).isLt
  have hi1 : (i 1).val < 256 := (i 1).isLt
  refine ⟨⟨(i 0).val / 2048, by show (i 0).val / 2048 < 10; omega⟩, flush1_5 _, ?_⟩
  rw [mem_blk]
  obtain ⟨e0, e1, -⟩ := idx_facts ⟨(i 0).val / 2048, by show (i 0).val / 2048 < 10; omega⟩
  intro a
  match a with
  | ⟨0, _⟩ => show win1_5.index _ (0 : Fin 2) * 2048 ≤ (i 0).val ∧ (i 0).val < win1_5.index _ (0 : Fin 2) * 2048 + 2048; rw [e0]; show (i 0).val / 2048 * 2048 ≤ (i 0).val ∧ (i 0).val < (i 0).val / 2048 * 2048 + 2048; omega
  | ⟨1, _⟩ => show win1_5.index _ (1 : Fin 2) * 256 ≤ (i 1).val ∧ (i 1).val < win1_5.index _ (1 : Fin 2) * 256 + 256; rw [e1]; omega

/-- THE OUTPUT ARRAY after the region: `G` of the five arrays the region found. -/
theorem arr_out (c : Dev nD) :
    (dat1 V c).arrAt 5 cfg1.N = G (arr0 V c) (arr1 V c) (arr2 V c) (arr3 V c) (arr4 V c) :=
  (dat1 V c).arrAt_eq_of_cover 5 _ (fun t _ => flushed_eq V c t) cover

end Cert.KernelIdeal.Region1

end
-- ==== Proof.Dense1.lean ====
/-
  The second layer's dense step: the kernel's blocked form against the reference's whole-array form.

  The kernel pads the two feature arrays (the leading rows of the first layer's output and its neighbour mean) from 20000 to 20480
  rows with zeros, runs the region over 10 blocks of 2048 rows, and keeps the first 20000 rows of its output. At a kept
  row r the padded arrays hold the unpadded row r, the weights pass through a change of float format (the identity on
  extended reals) and the bias through a reshape to one row, so entry (r, q) is
      max (Σ_k hd(r,k)·Ws(k,q) + Σ_k hn(r,k)·Wn(k,q) + b(q)) 0,
  which is what the reference's two dot products, its two sums with the repeated bias and its maximum with zero give there.
  The feature arrays enter only through their entries: the gather, the two segment sums and the quotient that make the
  neighbour mean are never opened.
-/
import proofs.«130816_j76673756168338_1_alg».proof.Proof.Region1
import proofs.«130816_j76673756168338_1_alg».proof.Proof.Gen.ReferenceIdeal.Read
import Idealize.ShloMosaic.Lib.KernelVsHost

set_option maxRecDepth 16384

noncomputable section

namespace Cert.KernelIdeal.Dense1

open Cert.KernelIdeal Cert.KernelIdeal.Gen Idealize.ShloMosaic Idealize.ShloMosaic.TcCoe Idealize.SL.Sem
open Idealize.ShloMosaic.ValueIdx
open Cert.ReferenceIdeal.Read

/-- A padded feature array at a row below 20000 holds the unpadded array's row. -/
theorem pad_row (h : Vec Ideal S20000x256 .f32) (z : Vec Ideal S_ .f32) (r : Fin 20000) (k : Fin 256) (r' : Fin 20480) (hr : r'.val = r.val)
    (j : S20000x256.Idx) (hj0 : (j 0).val = r.val) (hj1 : (j 1).val = k.val) :
    pad S20480x256 ![0, 0] ![480, 0] ![0, 0] h z pads_S20000x256_S20480x256_04800_000 h_S_ (ix2 r' k) = h j :=
  pad_apply_of_inside ![0, 0] ![480, 0] ![0, 0] h z pads_S20000x256_S20480x256_04800_000 h_S_ (ix2 r' k) j (fun a => by
    match a with
    | ⟨0, _⟩ => show r'.val = 0 + (j 0).val * (0 + 1); omega
    | ⟨1, _⟩ => show k.val = 0 + (j 1).val * (0 + 1); omega)

/-- The bias reshaped to one row, read at (0, q). -/
theorem bias_row (b : Vec Ideal S256 .f32) (q : Fin 256) (j : S256.Idx) (hj : (j 0).val = q.val) :
    shapeCast S1x256 b shapeCasts_S256_S1x256 (ix2 (0 : Fin 1) q) = b j :=
  shapeCast_apply b shapeCasts_S256_S1x256 (ix2 (0 : Fin 1) q) j (by
    rw [Shape.rowMajor_val_one, Shape.rowMajor_val_two]
    show (j 0).val = (0 : Fin 1).val * 256 + q.val
    simp [hj])

theorem dense_eq (x0 : Vec Ideal S1000000x128 .f32) (x1 x2 : Vec Ideal S2000000 .i32) (x3 x4 : Vec Ideal S200000 .i32) (x7 x8 : Vec Ideal S128x256 .f32) (x9 : Vec Ideal S256 .f32)
    (x10 x11 : FVec Ideal S256x256 .f32) (x12 : Vec Ideal S256 .f32)
    (z z' : Vec Ideal S_ .f32) :
    extractStridedSlice S20000x256 ![0, 0]
        (Region1.G (pad S20480x256 ![0, 0] ![480, 0] ![0, 0] (val_main_v46 (F := Ideal) x0 x1 x2 x7 x8 x9) z pads_S20000x256_S20480x256_04800_000 h_S_)
          (pad S20480x256 ![0, 0] ![480, 0] ![0, 0] (val_main_v45 (F := Ideal) x0 x1 x2 x3 x4 x7 x8 x9) z' pads_S20000x256_S20480x256_04800_000 h_S_)
          (truncf .bf16 x10 bitsLt_bf16_f32 : FVec Ideal S256x256 .bf16) (truncf .bf16 x11 bitsLt_bf16_f32 : FVec Ideal S256x256 .bf16) (shapeCast S1x256 x12 shapeCasts_S256_S1x256))
        slices_S20480x256_S20000x256_0_0
      = val_main_v53 (F := Ideal) x0 x1 x2 x3 x4 x7 x8 x9 x10 x11 x12 := by
  funext i
  obtain ⟨r, q, rfl⟩ : ∃ (r : Fin 20000) (q : Fin 256), i = ix2 r q := ⟨i 0, i 1, eq_ix2 i⟩
  have hr : r.val < 20480 := by have := r.isLt; omega
  rw [extractStridedSlice_apply ![0, 0] _ slices_S20480x256_S20000x256_0_0 (ix2 r q) (ix2 (⟨r.val, hr⟩ : Fin 20480) q) (fun a => by
    match a with
    | ⟨0, _⟩ => show r.val = 0 + r.val; omega
    | ⟨1, _⟩ => show q.val = 0 + q.val; omega)]
  rw [val_main_v53_apply, val_main_v52_apply, val_main_v49_apply, val_main_v47_apply, val_main_v48_apply, val_main_v51_apply,
    val_main_v50_apply, val_main_call1_v0_apply, val_main_call1_cst_apply]
  unfold Region1.G
  refine congrArg (fun x => max x _) ?_
  refine congrArg₂ (· + ·) (congrArg₂ (· + ·) ?_ ?_) ?_
  · refine Finset.sum_congr rfl fun k _ => congrArg₂ (· * ·) ?_ ?_
    · exact pad_row _ z r k _ rfl _ rfl rfl
    · exact congrArg x10 (funext fun a => Fin.ext (by match a with | ⟨0, _⟩ => rfl | ⟨1, _⟩ => rfl))
  · refine Finset.sum_congr rfl fun k _ => congrArg₂ (· * ·) ?_ ?_
    · exact pad_row _ z' r k _ rfl _ rfl rfl
    · exact congrArg x11 (funext fun a => Fin.ext (by match a with | ⟨0, _⟩ => rfl | ⟨1, _⟩ => rfl))
  · exact bias_row x12 q _ rfl

end Cert.KernelIdeal.Dense1

end
-- ==== Proof.Region0.lean ====
/-
  Region 0 of the kernel program (the first layer's dense step), at the extended reals.

  One grid point t of 98 stages rows [2048·t, 2048·t + 2048) of the two padded feature arrays and the whole of the two
  weight arrays and of the bias row, and writes back rows [2048·t, 2048·t + 2048) of the output. Entry (p, q) of the block
  it writes is  max (Σ_k hd(p,k)·ws(k,q) + Σ_k hn(p,k)·wn(k,q) + b(0,q)) 0 :  each product of two matrices into a zero
  accumulator is the plain sum over the contracted axis, the change of float format is the identity on extended reals,
  the bias row is repeated down the rows. The 98 blocks tile the output array, so after the region the array holds,
  at (r, q), that expression of row r of the two feature arrays as the region found them.
-/
import proofs.«130816_j76673756168338_1_alg».proof.Proof.Gen.KernelIdeal.Frame
import Idealize.ShloMosaic.Lib.ValueIdx
import Idealize.ShloMosaic.Lib.Pipeline.Value
import Idealize.ShloMosaic.PureOps.Ideal.Laws

set_option maxRecDepth 16384

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat Cfg Window)

/-! ## One product of two matrices, read at an entry -/

theorem lhs_axis0 (i : S2048x256.Idx) (q : dot_S2048x128_S128x256_S2048x256_1_0_0_1_n_n.contr.Idx) :
    (dot_S2048x128_S128x256_S2048x256_1_0_0_1_n_n.lhsIdx i q 0).val = (i 0).val := by
  unfold DotDims.lhsIdx
  rw [dif_neg (show ¬(0 : Fin S2048x128.rank) ∈ dot_S2048x128_S128x256_S2048x256_1_0_0_1_n_n.lhsBatch by decide), dif_pos (show (0 : Fin S2048x128.rank) ∈ dot_S2048x128_S128x256_S2048x256_1_0_0_1_n_n.lhsNonContracting by decide)]
  rfl
theorem lhs_axis1 (i : S2048x256.Idx) (q : dot_S2048x128_S128x256_S2048x256_1_0_0_1_n_n.contr.Idx) :
    (dot_S2048x128_S128x256_S2048x256_1_0_0_1_n_n.lhsIdx i q 1).val = (q ⟨0, by decide⟩).val :=
  dot_S2048x128_S128x256_S2048x256_1_0_0_1_n_n.lhsIdx_val_of_single rfl i q
theorem rhs_axis0 (i : S2048x256.Idx) (q : dot_S2048x128_S128x256_S2048x256_1_0_0_1_n_n.contr.Idx) :
    (dot_S2048x128_S128x256_S2048x256_1_0_0_1_n_n.rhsIdx i q 0).val = (q ⟨0, by decide⟩).val :=
  dot_S2048x128_S128x256_S2048x256_1_0_0_1_n_n.rhsIdx_val_of_single rfl i q
theorem rhs_axis1 (i : S2048x256.Idx) (q : dot_S2048x128_S128x256_S2048x256_1_0_0_1_n_n.contr.Idx) :
    (dot_S2048x128_S128x256_S2048x256_1_0_0_1_n_n.rhsIdx i q 1).val = (i 1).val := by
  unfold DotDims.rhsIdx
  rw [dif_neg (show ¬(1 : Fin S128x256.rank) ∈ dot_S2048x128_S128x256_S2048x256_1_0_0_1_n_n.rhsBatch by decide), dif_pos (show (1 : Fin S128x256.rank) ∈ dot_S2048x128_S128x256_S2048x256_1_0_0_1_n_n.rhsNonContracting by decide)]
  rfl

/-- Entry (p, q) of a product into the zero accumulator is the sum over the contracted axis. -/
theorem matmul_entry (l : FVec Ideal S2048x128 .bf16) (r : FVec Ideal S128x256 .bf16) (p : Fin 2048) (q : Fin 256) :
    matmul dot_S2048x128_S128x256_S2048x256_1_0_0_1_n_n none l r (constant S2048x256 .f32 0x00000000#32) (ix2 p q)
      = ∑ k : Fin 128, l (ix2 p k) * r (ix2 k q) := by
  simp only [matmul]
  rw [Ideal.matmul_constant_zero_apply, ← Equiv.sum_comp (contrEquiv1 dot_S2048x128_S128x256_S2048x256_1_0_0_1_n_n 128 rfl rfl).symm]
  refine Finset.sum_congr rfl fun k _ => ?_
  have hk := contrEquiv1_symm_val dot_S2048x128_S128x256_S2048x256_1_0_0_1_n_n 128 rfl rfl k
  have el : dot_S2048x128_S128x256_S2048x256_1_0_0_1_n_n.lhsIdx (ix2 p q) ((contrEquiv1 dot_S2048x128_S128x256_S2048x256_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S2048x128_S128x256_S2048x256_1_0_0_1_n_n.rhsIdx (ix2 p q) ((contrEquiv1 dot_S2048x128_S128x256_S2048x256_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-! ## The body's stored value, read at an entry -/

/-- The bias row repeated down the rows, read at (p, q). -/
theorem bias_entry (x4 : FVec Ideal S1x256 .f32) (p : Fin 2048) (q : Fin 256) :
    broadcastTo S2048x256 x4 broadcasts_S1x256_S2048x256 (ix2 p q) = x4 (ix2 0 q) :=
  broadcastTo_apply x4 broadcasts_S1x256_S2048x256 (ix2 p q) (ix2 0 q) (fun a => by
    match a with
    | ⟨0, _⟩ => rfl
    | ⟨1, _⟩ => rfl)

/-- What the body stores, at (p, q): the two sums, the bias, and the maximum with zero. -/
theorem pay_entry (x0 x1 : Vec Ideal S2048x128 .f32) (x2 x3 : Vec Ideal S128x256 .bf16) (x4 : Vec Ideal S1x256 .f32)
    (p : Fin 2048) (q : Fin 256) :
    k0_pay1 (F := Ideal) x0 x1 x2 x3 x4 (ix2 p q)
      = max ((∑ k : Fin 128, x0 (ix2 p k) * x2 (ix2 k q)) + (∑ k : Fin 128, x1 (ix2 p k) * x3 (ix2 k q)) + x4 (ix2 0 q))
          (Ideal.ofBits .f32 0x00000000#32) := by
  unfold k0_pay1
  simp only [shapeCast_self]
  rw [maximumf_apply, addf_apply, addf_apply, matmul_entry, matmul_entry, bias_entry]
  rfl

/-! ## The output array as one function of the arrays the region finds -/

/-- Entry (r, q) of the dense step over whole arrays: row r of the two feature arrays against column q of the two
    weight arrays, plus the bias at q, cut below at zero. -/
def G (a0 a1 : Vec Ideal S200704x128 .f32) (a2 a3 : Vec Ideal S128x256 .bf16) (a4 : Vec Ideal S1x256 .f32) :
    Vec Ideal S200704x256 .f32 := fun i =>
  max ((∑ k : Fin 128, a0 (ix2 (⟨(i 0).val, (i 0).isLt⟩ : Fin 200704) k) * a2 (ix2 k (⟨(i 1).val, (i 1).isLt⟩ : Fin 256)))
      + (∑ k : Fin 128, a1 (ix2 (⟨(i 0).val, (i 0).isLt⟩ : Fin 200704) k) * a3 (ix2 k (⟨(i 1).val, (i 1).isLt⟩ : Fin 256)))
      + a4 (ix2 0 (⟨(i 1).val, (i 1).isLt⟩ : Fin 256)))
    (Ideal.ofBits .f32 0x00000000#32)

variable (V : (c : Dev nD) → (b : Ref sig .tc) → Buf (Elt Ideal) ((c : Thread nD τ).loc b))

/-- The five arrays the region reads, as it finds them, at their literal shapes. -/
abbrev arr0 (c : Dev nD) : Vec Ideal S200704x128 .f32 := V c (Pipeline.arrRef spec0 0)
abbrev arr1 (c : Dev nD) : Vec Ideal S200704x128 .f32 := V c (Pipeline.arrRef spec0 1)
abbrev arr2 (c : Dev nD) : Vec Ideal S128x256 .bf16 := V c (Pipeline.arrRef spec0 2)
abbrev arr3 (c : Dev nD) : Vec Ideal S128x256 .bf16 := V c (Pipeline.arrRef spec0 3)
abbrev arr4 (c : Dev nD) : Vec Ideal S1x256 .f32 := V c (Pipeline.arrRef spec0 4)

theorem hz : (![0, 0] : Fin 2 → Nat) = fun _ => 0 := funext fun a => by fin_cases a <;> rfl

/-- The printed index maps over the 98 points: the two feature windows and the output window move together down the
    rows, block t at block row t; the weight and bias windows stay at block (0, 0). -/
theorem idx_facts : ∀ t : Fin cfg0.N, win0_5.index t (0 : Fin 2) = t.val ∧ win0_5.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- A feature window's block at point t, read at (p, k), is the array at row 2048·t + p. -/
theorem read_feat0 (c : Dev nD) (t : Fin cfg0.N) (p : Fin 2048) (k : Fin 128) (r : Fin 200704) (hr : r.val = t.val * 2048 + p.val) :
    iblk0 V c 0 t (ix2 p k) = arr0 V c (ix2 r k) := by
  show V c (Pipeline.arrRef spec0 0) (((cfg0.win 0).blk t).view.emb (ix2 p k)) = V c (Pipeline.arrRef spec0 0) (ix2 r k)
  refine congrArg _ (funext fun a => Fin.ext ?_)
  obtain ⟨-, -, e0, e1, -⟩ := idx_facts t
  match a with
  | ⟨0, _⟩ => show win0_0.index t (0 : Fin 2) * 2048 + 1 * p.val = r.val; omega
  | ⟨1, _⟩ => show win0_0.index t (1 : Fin 2) * 128 + 1 * k.val = k.val; omega
theorem read_feat1 (c : Dev nD) (t : Fin cfg0.N) (p : Fin 2048) (k : Fin 128) (r : Fin 200704) (hr : r.val = t.val * 2048 + p.val) :
    iblk0 V c 1 t (ix2 p k) = arr1 V c (ix2 r k) := by
  show V c (Pipeline.arrRef spec0 1) (((cfg0.win 1).blk t).view.emb (ix2 p k)) = V c (Pipeline.arrRef spec0 1) (ix2 r k)
  refine congrArg _ (funext fun a => Fin.ext ?_)
  obtain ⟨-, -, -, -, e0, e1, -⟩ := idx_facts t
  match a with
  | ⟨0, _⟩ => show win0_1.index t (0 : Fin 2) * 2048 + 1 * p.val = r.val; omega
  | ⟨1, _⟩ => show win0_1.index t (1 : Fin 2) * 128 + 1 * k.val = k.val; omega
/-- A weight window's one block is the whole weight array. -/
theorem read_w2 (c : Dev nD) (t : Fin cfg0.N) (k : Fin 128) (q : Fin 256) :
    iblk0 V c 2 t (ix2 k q) = arr2 V c (ix2 k q) := by
  show V c (Pipeline.arrRef spec0 2) (((cfg0.win 2).blk t).view.emb (ix2 k q)) = V c (Pipeline.arrRef spec0 2) (ix2 k q)
  refine congrArg _ (funext fun a => Fin.ext ?_)
  obtain ⟨-, -, -, -, -, -, e0, e1, -⟩ := idx_facts t
  match a with
  | ⟨0, _⟩ => show win0_2.index t (0 : Fin 2) * 128 + 1 * k.val = k.val; omega
  | ⟨1, _⟩ => show win0_2.index t (1 : Fin 2) * 256 + 1 * q.val = q.val; omega
theorem read_w3 (c : Dev nD) (t : Fin cfg0.N) (k : Fin 128) (q : Fin 256) :
    iblk0 V c 3 t (ix2 k q) = arr3 V c (ix2 k q) := by
  show V c (Pipeline.arrRef spec0 3) (((cfg0.win 3).blk t).view.emb (ix2 k q)) = V c (Pipeline.arrRef spec0 3) (ix2 k q)
  refine congrArg _ (funext fun a => Fin.ext ?_)
  obtain ⟨-, -, -, -, -, -, -, -, e0, e1, -⟩ := idx_facts t
  match a with
  | ⟨0, _⟩ => show win0_3.index t (0 : Fin 2) * 128 + 1 * k.val = k.val; omega
  | ⟨1, _⟩ => show win0_3.index t (1 : Fin 2) * 256 + 1 * q.val = q.val; omega
/-- The bias window's one block is the whole bias row. -/
theorem read_b4 (c : Dev nD) (t : Fin cfg0.N) (q : Fin 256) :
    iblk0 V c 4 t (ix2 (0 : Fin 1) q) = arr4 V c (ix2 (0 : Fin 1) q) := by
  show V c (Pipeline.arrRef spec0 4) (((cfg0.win 4).blk t).view.emb (ix2 (0 : Fin 1) q)) = V c (Pipeline.arrRef spec0 4) (ix2 (0 : Fin 1) q)
  refine congrArg _ (funext fun a => Fin.ext ?_)
  obtain ⟨-, -, -, -, -, -, -, -, -, -, e0, e1⟩ := idx_facts t
  match a with
  | ⟨0, _⟩ => show win0_4.index t (0 : Fin 2) * 1 + 1 * (0 : Fin 1).val = (0 : Fin 1).val; omega
  | ⟨1, _⟩ => show win0_4.index t (1 : Fin 2) * 256 + 1 * q.val = q.val; omega

/-- WHAT POINT t WRITES BACK is block t of `G` of the arrays as the region finds them. -/
theorem flushed_eq (c : Dev nD) (t : Fin cfg0.N) :
    (dat0 V c).flushed 5 t = ((cfg0.win 5).blk t).view.read (Elt Ideal) (G (arr0 V c) (arr1 V c) (arr2 V c) (arr3 V c) (arr4 V c)) := by
  show (cfg0.win 5).cut (grid0.coords t) ((dat0 V c).after 5 t) = _
  rw [after0_5]
  unfold out0_5
  rw [View.canon_unit_zero hz]
  simp only [View.ld_unit_zero (S := S2048x128) hz, View.ld_unit_zero (S := S128x256) hz, View.ld_unit_zero (S := S1x256) hz]
  funext j
  obtain ⟨p, q, rfl⟩ : ∃ (p : Fin 2048) (q : Fin 256), j = ix2 p q := ⟨j 0, j 1, eq_ix2 j⟩
  obtain ⟨e0, e1, -⟩ := idx_facts t
  have hrow : (((cfg0.win 5).blk t).view.emb (ix2 p q) 0).val = t.val * 2048 + p.val := by
    show win0_5.index t (0 : Fin 2) * 2048 + 1 * p.val = _; omega
  have hcol : (((cfg0.win 5).blk t).view.emb (ix2 p q) 1).val = q.val := by
    show win0_5.index t (1 : Fin 2) * 256 + 1 * q.val = _; omega
  show k0_pay1 (F := Ideal) (iblk0 V c 0 t) (iblk0 V c 1 t) (iblk0 V c 2 t) (iblk0 V c 3 t) (iblk0 V c 4 t) (ix2 p q)
    = G (arr0 V c) (arr1 V c) (arr2 V c) (arr3 V c) (arr4 V c) (((cfg0.win 5).blk t).view.emb (ix2 p q))
  refine (pay_entry (iblk0 V c 0 t) (iblk0 V c 1 t) (iblk0 V c 2 t) (iblk0 V c 3 t) (iblk0 V c 4 t) p q).trans ?_
  unfold G
  have hq : (⟨(((cfg0.win 5).blk t).view.emb (ix2 p q) 1).val, (((cfg0.win 5).blk t).view.emb (ix2 p q) 1).isLt⟩ : Fin 256) = q := Fin.ext hcol
  rw [hq]
  refine congrArg (fun x => max x _) ?_
  refine congrArg₂ (· + ·) (congrArg₂ (· + ·) ?_ ?_) (read_b4 V c t q)
  · exact Finset.sum_congr rfl fun k _ => congrArg₂ (· * ·) (read_feat0 V c t p k _ hrow) (read_w2 V c t k q)
  · exact Finset.sum_congr rfl fun k _ => congrArg₂ (· * ·) (read_feat1 V c t p k _ hrow) (read_w3 V c t k q)

/-- An index of the output array is in point t's block iff its row is in [2048·t, 2048·t + 2048). -/
theorem mem_blk (t : Fin cfg0.N) (i : S200704x256.Idx) :
    i ∈ ((cfg0.win 5).blk t).view.set ↔ ∀ a : Fin 2, win0_5.index t a * S2048x256.size a ≤ (i a).val ∧ (i a).val < win0_5.index t a * S2048x256.size a + S2048x256.size a := by
  show i ∈ ((View.whole main_call0_v25).slice (win0_5.rect t)).set ↔ _
  rw [View.set_slice_whole, Rect.mem_set_unit]
  exact Iff.rfl

/-- The 98 blocks tile the output array: row r is in block r / 2048. -/
theorem cover (i : S200704x256.Idx) : ∃ t : Fin cfg0.N, (cfg0.win 5).flush t = true ∧ i ∈ ((cfg0.win 5).blk t).view.set := by
  have hi0 : (i 0).val < 200704 := (i 0).isLt
  have hi1 : (i 1).val < 256 := (i 1).isLt
  refine ⟨⟨(i 0).val / 2048, by show (i 0).val / 2048 < 98; omega⟩, flush0_5 _, ?_⟩
  rw [mem_blk]
  obtain ⟨e0, e1, -⟩ := idx_facts ⟨(i 0).val / 2048, by show (i 0).val / 2048 < 98; omega⟩
  intro a
  match a with
  | ⟨0, _⟩ => show win0_5.index _ (0 : Fin 2) * 2048 ≤ (i 0).val ∧ (i 0).val < win0_5.index _ (0 : Fin 2) * 2048 + 2048; rw [e0]; show (i 0).val / 2048 * 2048 ≤ (i 0).val ∧ (i 0).val < (i 0).val / 2048 * 2048 + 2048; omega
  | ⟨1, _⟩ => show win0_5.index _ (1 : Fin 2) * 256 ≤ (i 1).val ∧ (i 1).val < win0_5.index _ (1 : Fin 2) * 256 + 256; rw [e1]; omega

/-- THE OUTPUT ARRAY after the region: `G` of the five arrays the region found. -/
theorem arr_out (c : Dev nD) :
    (dat0 V c).arrAt 5 cfg0.N = G (arr0 V c) (arr1 V c) (arr2 V c) (arr3 V c) (arr4 V c) :=
  (dat0 V c).arrAt_eq_of_cover 5 _ (fun t _ => flushed_eq V c t) cover

end Cert.KernelIdeal.Region0

end
-- ==== Proof.Dense0.lean ====
/-
  The first layer's dense step: the kernel's blocked form against the reference's whole-array form.

  The kernel pads the two feature arrays (the leading rows of the input and the neighbour mean) from 200000 to 200704
  rows with zeros, runs the region over 98 blocks of 2048 rows, and keeps the first 200000 rows of its output. At a kept
  row r the padded arrays hold the unpadded row r, the weights pass through a change of float format (the identity on
  extended reals) and the bias through a reshape to one row, so entry (r, q) is
      max (Σ_k hd(r,k)·Ws(k,q) + Σ_k hn(r,k)·Wn(k,q) + b(q)) 0,
  which is what the reference's two dot products, its two sums with the repeated bias and its maximum with zero give there.
  The feature arrays enter only through their entries: the gather, the two segment sums and the quotient that make the
  neighbour mean are never opened.
-/
import proofs.«130816_j76673756168338_1_alg».proof.Proof.Region0
import proofs.«130816_j76673756168338_1_alg».proof.Proof.Gen.ReferenceIdeal.Read
import Idealize.ShloMosaic.Lib.KernelVsHost

set_option maxRecDepth 16384

noncomputable section

namespace Cert.KernelIdeal.Dense0

open Cert.KernelIdeal Cert.KernelIdeal.Gen Idealize.ShloMosaic Idealize.ShloMosaic.TcCoe Idealize.SL.Sem
open Idealize.ShloMosaic.ValueIdx
open Cert.ReferenceIdeal.Read

/-- A padded feature array at a row below 200000 holds the unpadded array's row. -/
theorem pad_row (h : Vec Ideal S200000x128 .f32) (z : Vec Ideal S_ .f32) (r : Fin 200000) (k : Fin 128) (r' : Fin 200704) (hr : r'.val = r.val)
    (j : S200000x128.Idx) (hj0 : (j 0).val = r.val) (hj1 : (j 1).val = k.val) :
    pad S200704x128 ![0, 0] ![704, 0] ![0, 0] h z pads_S200000x128_S200704x128_07040_000 h_S_ (ix2 r' k) = h j :=
  pad_apply_of_inside ![0, 0] ![704, 0] ![0, 0] h z pads_S200000x128_S200704x128_07040_000 h_S_ (ix2 r' k) j (fun a => by
    match a with
    | ⟨0, _⟩ => show r'.val = 0 + (j 0).val * (0 + 1); omega
    | ⟨1, _⟩ => show k.val = 0 + (j 1).val * (0 + 1); omega)

/-- The bias reshaped to one row, read at (0, q). -/
theorem bias_row (b : Vec Ideal S256 .f32) (q : Fin 256) (j : S256.Idx) (hj : (j 0).val = q.val) :
    shapeCast S1x256 b shapeCasts_S256_S1x256 (ix2 (0 : Fin 1) q) = b j :=
  shapeCast_apply b shapeCasts_S256_S1x256 (ix2 (0 : Fin 1) q) j (by
    rw [Shape.rowMajor_val_one, Shape.rowMajor_val_two]
    show (j 0).val = (0 : Fin 1).val * 256 + q.val
    simp [hj])

theorem dense_eq (x0 : Vec Ideal S1000000x128 .f32) (x1 x2 : Vec Ideal S2000000 .i32) (x7 x8 : FVec Ideal S128x256 .f32) (x9 : Vec Ideal S256 .f32)
    (z z' : Vec Ideal S_ .f32) :
    extractStridedSlice S200000x256 ![0, 0]
        (Region0.G (pad S200704x128 ![0, 0] ![704, 0] ![0, 0] (val_main_v19 (F := Ideal) x0) z pads_S200000x128_S200704x128_07040_000 h_S_)
          (pad S200704x128 ![0, 0] ![704, 0] ![0, 0] (val_main_v18 (F := Ideal) x0 x1 x2) z' pads_S200000x128_S200704x128_07040_000 h_S_)
          (truncf .bf16 x7 bitsLt_bf16_f32 : FVec Ideal S128x256 .bf16) (truncf .bf16 x8 bitsLt_bf16_f32 : FVec Ideal S128x256 .bf16) (shapeCast S1x256 x9 shapeCasts_S256_S1x256))
        slices_S200704x256_S200000x256_0_0
      = val_main_v26 (F := Ideal) x0 x1 x2 x7 x8 x9 := by
  funext i
  obtain ⟨r, q, rfl⟩ : ∃ (r : Fin 200000) (q : Fin 256), i = ix2 r q := ⟨i 0, i 1, eq_ix2 i⟩
  have hr : r.val < 200704 := by have := r.isLt; omega
  rw [extractStridedSlice_apply ![0, 0] _ slices_S200704x256_S200000x256_0_0 (ix2 r q) (ix2 (⟨r.val, hr⟩ : Fin 200704) q) (fun a => by
    match a with
    | ⟨0, _⟩ => show r.val = 0 + r.val; omega
    | ⟨1, _⟩ => show q.val = 0 + q.val; omega)]
  rw [val_main_v26_apply, val_main_v25_apply, val_main_v22_apply, val_main_v20_apply, val_main_v21_apply, val_main_v24_apply,
    val_main_v23_apply, val_main_call0_v0_apply, val_main_call0_cst_apply]
  unfold Region0.G
  refine congrArg (fun x => max x _) ?_
  refine congrArg₂ (· + ·) (congrArg₂ (· + ·) ?_ ?_) ?_
  · refine Finset.sum_congr rfl fun k _ => congrArg₂ (· * ·) ?_ ?_
    · exact pad_row _ z r k _ rfl _ rfl rfl
    · exact congrArg x7 (funext fun a => Fin.ext (by match a with | ⟨0, _⟩ => rfl | ⟨1, _⟩ => rfl))
  · refine Finset.sum_congr rfl fun k _ => congrArg₂ (· * ·) ?_ ?_
    · exact pad_row _ z' r k _ rfl _ rfl rfl
    · exact congrArg x8 (funext fun a => Fin.ext (by match a with | ⟨0, _⟩ => rfl | ⟨1, _⟩ => rfl))
  · exact bias_row x9 q _ rfl

end Cert.KernelIdeal.Dense0

end
-- ==== Proof.Layer0.lean ====
/-
  The first layer, read off the program's state.

  When region 0 is entered its five arrays hold what the first stretch of host operations made of the arguments: the
  leading 200000 rows of the input padded with zeros to 200704 rows; the neighbour mean (the gathered rows summed per
  destination and divided by the larger of the destination's count and one) padded likewise; the two weight arrays in
  the narrower float format; the bias as one row. The host operations are the reference's own, so each array is stated
  with the reference's stage for it; that reading holds for any float values, the operations being the same terms on
  both sides, and is stated so. With region 0's output as one function of those five arrays, the first 200000 rows
  of that output are, over the extended reals, the reference's first layer.
-/
import proofs.«130816_j76673756168338_1_alg».proof.Proof.Dense0
import proofs.«130816_j76673756168338_1_alg».proof.Proof.Gen.KernelIdeal.Frame
import Idealize.ShloMosaic.Lib.StableHlo.Run

set_option maxRecDepth 16384

noncomputable section

namespace Cert.KernelIdeal.Layer0

open Cert.KernelIdeal Cert.KernelIdeal.Gen Idealize.ShloMosaic Idealize.ShloMosaic.TcCoe Idealize.SL.Sem Idealize.ShloMosaic.StableHlo
open Cert.ReferenceIdeal.Read

/-! ## The first stretch of host operations, for any float values -/

section Reading

variable {F : FTy → Type} [FloatOps F]
variable (m : (ℓ : Loc nD τ sig) → Buf (Elt F) ℓ) (ρ : Dev nD → PrngReg)

/-- The leading rows of the input, padded. -/
theorem rd0 (c : Dev nD) :
    (W1 m ρ c (Proc.devRef .tc main_call0_v20) : Vec F S200704x128 .f32)
      = pad S200704x128 ![0, 0] ![704, 0] ![0, 0] (val_main_v19 (F := F) (m ((c : Thread nD τ).loc main_arg0)))
          (sitofp .f32 (constantI S_ 32 0#32) : FVec F S_ .f32) pads_S200000x128_S200704x128_07040_000 h_S_ := by
  show StableHlo.after hostOps0 (W0 m ρ c) (Proc.devRef .tc main_call0_v20) = _
  after_results_simp
  rfl

set_option maxHeartbeats 4000000 in
/-- The neighbour mean, padded. -/
theorem rd1 (c : Dev nD) :
    (W1 m ρ c (Proc.devRef .tc main_call0_v21) : Vec F S200704x128 .f32)
      = pad S200704x128 ![0, 0] ![704, 0] ![0, 0] (val_main_v18 (F := F) (m ((c : Thread nD τ).loc main_arg0)) (m ((c : Thread nD τ).loc main_arg1)) (m ((c : Thread nD τ).loc main_arg2)))
          (sitofp .f32 (constantI S_ 32 0#32) : FVec F S_ .f32) pads_S200000x128_S200704x128_07040_000 h_S_ := by
  show StableHlo.after hostOps0 (W0 m ρ c) (Proc.devRef .tc main_call0_v21) = _
  after_results_simp
  rfl

theorem rd2 (c : Dev nD) :
    (W1 m ρ c (Proc.devRef .tc main_call0_v22) : Vec F S128x256 .bf16)
      = (truncf .bf16 ((m ((c : Thread nD τ).loc main_arg7)) : FVec F S128x256 .f32) bitsLt_bf16_f32 : FVec F S128x256 .bf16) := by
  show StableHlo.after hostOps0 (W0 m ρ c) (Proc.devRef .tc main_call0_v22) = _
  after_results_simp
  rfl
theorem rd3 (c : Dev nD) :
    (W1 m ρ c (Proc.devRef .tc main_call0_v23) : Vec F S128x256 .bf16)
      = (truncf .bf16 ((m ((c : Thread nD τ).loc main_arg8)) : FVec F S128x256 .f32) bitsLt_bf16_f32 : FVec F S128x256 .bf16) := by
  show StableHlo.after hostOps0 (W0 m ρ c) (Proc.devRef .tc main_call0_v23) = _
  after_results_simp
  rfl
theorem rd4 (c : Dev nD) :
    (W1 m ρ c (Proc.devRef .tc main_call0_v24) : Vec F S1x256 .f32)
      = shapeCast S1x256 ((m ((c : Thread nD τ).loc main_arg9)) : Vec F S256 .f32) shapeCasts_S256_S1x256 := by
  show StableHlo.after hostOps0 (W0 m ρ c) (Proc.devRef .tc main_call0_v24) = _
  after_results_simp
  rfl

end Reading

/-! ## Over the extended reals -/

variable (m : (ℓ : Loc nD τ sig) → Buf (Elt Ideal) ℓ) (ρ : Dev nD → PrngReg)

/-- The arguments the first layer reads, at their literal shapes. -/
abbrev x0 (c : Dev nD) : Vec Ideal S1000000x128 .f32 := m ((c : Thread nD τ).loc main_arg0)
abbrev x1 (c : Dev nD) : Vec Ideal S2000000 .i32 := m ((c : Thread nD τ).loc main_arg1)
abbrev x2 (c : Dev nD) : Vec Ideal S2000000 .i32 := m ((c : Thread nD τ).loc main_arg2)
abbrev x7 (c : Dev nD) : FVec Ideal S128x256 .f32 := m ((c : Thread nD τ).loc main_arg7)
abbrev x8 (c : Dev nD) : FVec Ideal S128x256 .f32 := m ((c : Thread nD τ).loc main_arg8)
abbrev x9 (c : Dev nD) : Vec Ideal S256 .f32 := m ((c : Thread nD τ).loc main_arg9)

theorem in0 (c : Dev nD) :
    Region0.arr0 (V1 m ρ) c = pad S200704x128 ![0, 0] ![704, 0] ![0, 0] (val_main_v19 (F := Ideal) (x0 m c))
      (sitofp .f32 (constantI S_ 32 0#32) : FVec Ideal S_ .f32) pads_S200000x128_S200704x128_07040_000 h_S_ := rd0 m ρ c
theorem in1 (c : Dev nD) :
    Region0.arr1 (V1 m ρ) c = pad S200704x128 ![0, 0] ![704, 0] ![0, 0] (val_main_v18 (F := Ideal) (x0 m c) (x1 m c) (x2 m c))
      (sitofp .f32 (constantI S_ 32 0#32) : FVec Ideal S_ .f32) pads_S200000x128_S200704x128_07040_000 h_S_ := rd1 m ρ c
theorem in2 (c : Dev nD) : Region0.arr2 (V1 m ρ) c = (truncf .bf16 (x7 m c) bitsLt_bf16_f32 : FVec Ideal S128x256 .bf16) := rd2 m ρ c
theorem in3 (c : Dev nD) : Region0.arr3 (V1 m ρ) c = (truncf .bf16 (x8 m c) bitsLt_bf16_f32 : FVec Ideal S128x256 .bf16) := rd3 m ρ c
theorem in4 (c : Dev nD) : Region0.arr4 (V1 m ρ) c = shapeCast S1x256 (x9 m c) shapeCasts_S256_S1x256 := rd4 m ρ c

/-- THE FIRST LAYER: the first 200000 rows of region 0's output array are the reference's first layer of the arguments. -/
theorem out (c : Dev nD) :
    extractStridedSlice S200000x256 ![0, 0] (W2 m ρ c (Proc.devRef .tc main_call0_v25) : Vec Ideal S200704x256 .f32) slices_S200704x256_S200000x256_0_0
      = val_main_v26 (F := Ideal) (x0 m c) (x1 m c) (x2 m c) (x7 m c) (x8 m c) (x9 m c) := by
  have hW : (W2 m ρ c (Proc.devRef .tc main_call0_v25) : Vec Ideal S200704x256 .f32)
      = Region0.G (Region0.arr0 (V1 m ρ) c) (Region0.arr1 (V1 m ρ) c) (Region0.arr2 (V1 m ρ) c) (Region0.arr3 (V1 m ρ) c) (Region0.arr4 (V1 m ρ) c) :=
    (W2_arr m ρ c 5).trans (Region0.arr_out (V1 m ρ) c)
  rw [hW, in0, in1, in2, in3, in4]
  exact Dense0.dense_eq _ _ _ _ _ _ _ _

end Cert.KernelIdeal.Layer0

end
-- ==== Proof.Args.lean ====
/-
  Arguments read back at the boundaries between @main's stretches.

  No host operation and no region writes an argument buffer, so at the entry of the second and of the third stretch of
  host operations an argument still holds what the launch memory held: the fold of the earlier stretches and of the
  earlier regions' write-backs, read at that buffer, walks back to the launch.
-/
import proofs.«130816_j76673756168338_1_alg».proof.Proof.Gen.KernelIdeal.Frame

set_option maxRecDepth 16384

noncomputable section

namespace Cert.KernelIdeal.Args

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-- A stretch of host operations leaves a buffer none of them writes as it was. -/
macro "stretch_keeps" : tactic => `(tactic| (
  refine StableHlo.after_of_forall_not_mem _ _ (List.forall_iff_forall_mem.mp ?_)
  simp only [hostOps0, hostOps1, hostOps2, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-- After the first region, a buffer that is none of its arrays and that the first stretch does not write holds its launch contents. -/
theorem W2_launch (c : Dev nD) (b : Ref sig .tc) (hb : ∀ w, Pipeline.arrRef spec0 w ≠ b)
    (h0 : W1 m ρ c (Proc.devRef .tc b) = W0 m ρ c (Proc.devRef .tc b)) :
    W2 m ρ c (Proc.devRef .tc b) = m ((c : Thread nD τ).loc b) :=
  (W2_of_ne m ρ c b hb).trans (h0.trans rfl)

theorem W2_main_arg3 (c : Dev nD) : W2 m ρ c (Proc.devRef .tc main_arg3) = m ((c : Thread nD τ).loc main_arg3) :=
  W2_launch m ρ c main_arg3 (by decide) (by stretch_keeps)
theorem W2_main_arg4 (c : Dev nD) : W2 m ρ c (Proc.devRef .tc main_arg4) = m ((c : Thread nD τ).loc main_arg4) :=
  W2_launch m ρ c main_arg4 (by decide) (by stretch_keeps)
theorem W2_main_arg10 (c : Dev nD) : W2 m ρ c (Proc.devRef .tc main_arg10) = m ((c : Thread nD τ).loc main_arg10) :=
  W2_launch m ρ c main_arg10 (by decide) (by stretch_keeps)
theorem W2_main_arg11 (c : Dev nD) : W2 m ρ c (Proc.devRef .tc main_arg11) = m ((c : Thread nD τ).loc main_arg11) :=
  W2_launch m ρ c main_arg11 (by decide) (by stretch_keeps)
theorem W2_main_arg12 (c : Dev nD) : W2 m ρ c (Proc.devRef .tc main_arg12) = m ((c : Thread nD τ).loc main_arg12) :=
  W2_launch m ρ c main_arg12 (by decide) (by stretch_keeps)

/-- The same one region later. -/
theorem W4_launch (c : Dev nD) (b : Ref sig .tc) (hb1 : ∀ w, Pipeline.arrRef spec1 w ≠ b) (hb0 : ∀ w, Pipeline.arrRef spec0 w ≠ b)
    (h1 : W3 m ρ c (Proc.devRef .tc b) = W2 m ρ c (Proc.devRef .tc b))
    (h0 : W1 m ρ c (Proc.devRef .tc b) = W0 m ρ c (Proc.devRef .tc b)) :
    W4 m ρ c (Proc.devRef .tc b) = m ((c : Thread nD τ).loc b) :=
  (W4_of_ne m ρ c b hb1).trans (h1.trans (W2_launch m ρ c b hb0 h0))

theorem W4_main_arg5 (c : Dev nD) : W4 m ρ c (Proc.devRef .tc main_arg5) = m ((c : Thread nD τ).loc main_arg5) :=
  W4_launch m ρ c main_arg5 (by decide) (by decide) (by stretch_keeps) (by stretch_keeps)
theorem W4_main_arg6 (c : Dev nD) : W4 m ρ c (Proc.devRef .tc main_arg6) = m ((c : Thread nD τ).loc main_arg6) :=
  W4_launch m ρ c main_arg6 (by decide) (by decide) (by stretch_keeps) (by stretch_keeps)
theorem W4_main_arg13 (c : Dev nD) : W4 m ρ c (Proc.devRef .tc main_arg13) = m ((c : Thread nD τ).loc main_arg13) :=
  W4_launch m ρ c main_arg13 (by decide) (by decide) (by stretch_keeps) (by stretch_keeps)
theorem W4_main_arg14 (c : Dev nD) : W4 m ρ c (Proc.devRef .tc main_arg14) = m ((c : Thread nD τ).loc main_arg14) :=
  W4_launch m ρ c main_arg14 (by decide) (by decide) (by stretch_keeps) (by stretch_keeps)
theorem W4_main_arg15 (c : Dev nD) : W4 m ρ c (Proc.devRef .tc main_arg15) = m ((c : Thread nD τ).loc main_arg15) :=
  W4_launch m ρ c main_arg15 (by decide) (by decide) (by stretch_keeps) (by stretch_keeps)

end Cert.KernelIdeal.Args

end
-- ==== Proof.Layer1.lean ====
/-
  The second layer, read off the program's state.

  The second stretch of host operations starts from region 0's output array: it keeps the first 200000 rows (the first
  layer's output, which is the reference's first layer), gathers and averages its rows over the second edge list, and pads
  the leading 20000 rows and the neighbour mean with zeros to 20480 rows; the edge lists, the weights and the bias are
  arguments, still as launched. The host operations are the reference's own, so each of region 1's five arrays is stated
  with the reference's stage for it; that reading holds for any float values and any contents at the stretch's entry that
  have the first layer's output and the arguments where the stretch reads them, and is stated so. Over the extended reals
  the first 20000 rows of region 1's output are then the reference's second layer.
-/
import proofs.«130816_j76673756168338_1_alg».proof.Proof.Dense1
import proofs.«130816_j76673756168338_1_alg».proof.Proof.Layer0
import proofs.«130816_j76673756168338_1_alg».proof.Proof.Args
import Idealize.ShloMosaic.Lib.StableHlo.Run

set_option maxRecDepth 16384

noncomputable section

namespace Cert.KernelIdeal.Layer1

open Cert.KernelIdeal Cert.KernelIdeal.Gen Idealize.ShloMosaic Idealize.ShloMosaic.TcCoe Idealize.SL.Sem Idealize.ShloMosaic.StableHlo
open Cert.ReferenceIdeal.Read
open Cert.KernelIdeal.Layer0 (x0 x1 x2 x7 x8 x9)

/-! ## The second stretch of host operations, for any float values -/

section Reading

variable {F : FTy → Type} [FloatOps F]
variable (Wv : Valuation τ sig (Elt F))
variable (a0 : Vec F S1000000x128 .f32) (a1 a2 : Vec F S2000000 .i32) (a3 a4 : Vec F S200000 .i32)
  (a7 a8 : FVec F S128x256 .f32) (a9 : Vec F S256 .f32) (a10 a11 : FVec F S256x256 .f32) (a12 : Vec F S256 .f32)

/-- The leading rows of the first layer's output, padded. -/
theorem rd0
    (h25 : extractStridedSlice S200000x256 ![0, 0] ((TRef.of main_call0_v25 : TRef sig ⟨S200704x256, .f32⟩).ofBuf (Wv (Proc.devRef .tc main_call0_v25))) slices_S200704x256_S200000x256_0_0
      = val_main_v26 (F := F) a0 a1 a2 a7 a8 a9) :
    (StableHlo.after hostOps1 Wv (Proc.devRef .tc main_call0_v47) : Vec F S20480x256 .f32)
      = pad S20480x256 ![0, 0] ![480, 0] ![0, 0] (val_main_v46 (F := F) a0 a1 a2 a7 a8 a9)
          (sitofp .f32 (constantI S_ 32 0#32) : FVec F S_ .f32) pads_S20000x256_S20480x256_04800_000 h_S_ := by
  after_results_simp
  rw [h25]
  rfl

set_option maxHeartbeats 4000000 in
/-- The neighbour mean of the first layer's output, padded. -/
theorem rd1
    (h25 : extractStridedSlice S200000x256 ![0, 0] ((TRef.of main_call0_v25 : TRef sig ⟨S200704x256, .f32⟩).ofBuf (Wv (Proc.devRef .tc main_call0_v25))) slices_S200704x256_S200000x256_0_0
      = val_main_v26 (F := F) a0 a1 a2 a7 a8 a9)
    (h3 : ((TRef.of main_arg3 : TRef sig ⟨S200000, .i32⟩).ofBuf (Wv (Proc.devRef .tc main_arg3))) = a3) (h4 : ((TRef.of main_arg4 : TRef sig ⟨S200000, .i32⟩).ofBuf (Wv (Proc.devRef .tc main_arg4))) = a4) :
    (StableHlo.after hostOps1 Wv (Proc.devRef .tc main_call0_v48) : Vec F S20480x256 .f32)
      = pad S20480x256 ![0, 0] ![480, 0] ![0, 0] (val_main_v45 (F := F) a0 a1 a2 a3 a4 a7 a8 a9)
          (sitofp .f32 (constantI S_ 32 0#32) : FVec F S_ .f32) pads_S20000x256_S20480x256_04800_000 h_S_ := by
  after_results_simp
  rw [h25, h3, h4]
  rfl

theorem rd2 (h10 : ((TRef.of main_arg10 : TRef sig ⟨S256x256, .f32⟩).ofBuf (Wv (Proc.devRef .tc main_arg10))) = a10) :
    (StableHlo.after hostOps1 Wv (Proc.devRef .tc main_call0_v49) : Vec F S256x256 .bf16)
      = (truncf .bf16 a10 bitsLt_bf16_f32 : FVec F S256x256 .bf16) := by
  after_results_simp
  rw [h10]
  rfl
theorem rd3 (h11 : ((TRef.of main_arg11 : TRef sig ⟨S256x256, .f32⟩).ofBuf (Wv (Proc.devRef .tc main_arg11))) = a11) :
    (StableHlo.after hostOps1 Wv (Proc.devRef .tc main_call0_v50) : Vec F S256x256 .bf16)
      = (truncf .bf16 a11 bitsLt_bf16_f32 : FVec F S256x256 .bf16) := by
  after_results_simp
  rw [h11]
  rfl
theorem rd4 (h12 : ((TRef.of main_arg12 : TRef sig ⟨S256, .f32⟩).ofBuf (Wv (Proc.devRef .tc main_arg12))) = a12) :
    (StableHlo.after hostOps1 Wv (Proc.devRef .tc main_call0_v51) : Vec F S1x256 .f32)
      = shapeCast S1x256 a12 shapeCasts_S256_S1x256 := by
  after_results_simp
  subst h12
  rfl

end Reading

/-! ## Over the extended reals -/

variable (m : (ℓ : Loc nD τ sig) → Buf (Elt Ideal) ℓ) (ρ : Dev nD → PrngReg)

/-- The further arguments the second layer reads, at their literal shapes. -/
abbrev x3 (c : Dev nD) : Vec Ideal S200000 .i32 := m ((c : Thread nD τ).loc main_arg3)
abbrev x4 (c : Dev nD) : Vec Ideal S200000 .i32 := m ((c : Thread nD τ).loc main_arg4)
abbrev x10 (c : Dev nD) : FVec Ideal S256x256 .f32 := m ((c : Thread nD τ).loc main_arg10)
abbrev x11 (c : Dev nD) : FVec Ideal S256x256 .f32 := m ((c : Thread nD τ).loc main_arg11)
abbrev x12 (c : Dev nD) : Vec Ideal S256 .f32 := m ((c : Thread nD τ).loc main_arg12)

theorem in0 (c : Dev nD) :
    Region1.arr0 (V3 m ρ) c = pad S20480x256 ![0, 0] ![480, 0] ![0, 0]
      (val_main_v46 (F := Ideal) (x0 m c) (x1 m c) (x2 m c) (x7 m c) (x8 m c) (x9 m c))
      (sitofp .f32 (constantI S_ 32 0#32) : FVec Ideal S_ .f32) pads_S20000x256_S20480x256_04800_000 h_S_ :=
  rd0 (W2 m ρ c) (x0 m c) (x1 m c) (x2 m c) (x7 m c) (x8 m c) (x9 m c) (Layer0.out m ρ c)
theorem in1 (c : Dev nD) :
    Region1.arr1 (V3 m ρ) c = pad S20480x256 ![0, 0] ![480, 0] ![0, 0]
      (val_main_v45 (F := Ideal) (x0 m c) (x1 m c) (x2 m c) (x3 m c) (x4 m c) (x7 m c) (x8 m c) (x9 m c))
      (sitofp .f32 (constantI S_ 32 0#32) : FVec Ideal S_ .f32) pads_S20000x256_S20480x256_04800_000 h_S_ :=
  rd1 (W2 m ρ c) (x0 m c) (x1 m c) (x2 m c) (x3 m c) (x4 m c) (x7 m c) (x8 m c) (x9 m c) (Layer0.out m ρ c)
    (Args.W2_main_arg3 m ρ c) (Args.W2_main_arg4 m ρ c)
theorem in2 (c : Dev nD) : Region1.arr2 (V3 m ρ) c = (truncf .bf16 (x10 m c) bitsLt_bf16_f32 : FVec Ideal S256x256 .bf16) :=
  rd2 (W2 m ρ c) (x10 m c) (Args.W2_main_arg10 m ρ c)
theorem in3 (c : Dev nD) : Region1.arr3 (V3 m ρ) c = (truncf .bf16 (x11 m c) bitsLt_bf16_f32 : FVec Ideal S256x256 .bf16) :=
  rd3 (W2 m ρ c) (x11 m c) (Args.W2_main_arg11 m ρ c)
theorem in4 (c : Dev nD) : Region1.arr4 (V3 m ρ) c = shapeCast S1x256 (x12 m c) shapeCasts_S256_S1x256 :=
  rd4 (W2 m ρ c) (x12 m c) (Args.W2_main_arg12 m ρ c)

/-- THE SECOND LAYER: the first 20000 rows of region 1's output array are the reference's second layer of the arguments. -/
theorem out (c : Dev nD) :
    extractStridedSlice S20000x256 ![0, 0] (W4 m ρ c (Proc.devRef .tc main_call0_v52) : Vec Ideal S20480x256 .f32) slices_S20480x256_S20000x256_0_0
      = val_main_v53 (F := Ideal) (x0 m c) (x1 m c) (x2 m c) (x3 m c) (x4 m c) (x7 m c) (x8 m c) (x9 m c) (x10 m c) (x11 m c) (x12 m c) := by
  have hW : (W4 m ρ c (Proc.devRef .tc main_call0_v52) : Vec Ideal S20480x256 .f32)
      = Region1.G (Region1.arr0 (V3 m ρ) c) (Region1.arr1 (V3 m ρ) c) (Region1.arr2 (V3 m ρ) c) (Region1.arr3 (V3 m ρ) c) (Region1.arr4 (V3 m ρ) c) :=
    (W4_arr m ρ c 5).trans (Region1.arr_out (V3 m ρ) c)
  rw [hW, in0, in1, in2, in3, in4]
  exact Dense1.dense_eq _ _ _ _ _ _ _ _ _ _ _ _ _

end Cert.KernelIdeal.Layer1

end
-- ==== Proof.Layer2.lean ====
/-
  The last layer, read off the program's state, and with it the program's result.

  The third stretch of host operations starts from region 1's output array: it keeps the first 20000 rows (the second
  layer's output, which is the reference's second layer), gathers and averages its rows over the third edge list into 2048
  rows, and takes the leading 2048 rows; nothing is padded. The edge lists, the weights and the bias are arguments, still
  as launched. Each of region 2's five arrays is the reference's stage for it (for any float values, as in the layers
  before), and over the extended reals region 2's output array, which is the program's result, is the reference's result
  as a function of the arguments.
-/
import proofs.«130816_j76673756168338_1_alg».proof.Proof.Dense2
import proofs.«130816_j76673756168338_1_alg».proof.Proof.Layer1
import proofs.«130816_j76673756168338_1_alg».proof.Proof.Args
import Idealize.ShloMosaic.Lib.StableHlo.Run

set_option maxRecDepth 16384

noncomputable section

namespace Cert.KernelIdeal.Layer2

open Cert.KernelIdeal Cert.KernelIdeal.Gen Idealize.ShloMosaic Idealize.ShloMosaic.TcCoe Idealize.SL.Sem Idealize.ShloMosaic.StableHlo
open Cert.ReferenceIdeal.Read
open Cert.KernelIdeal.Layer0 (x0 x1 x2 x7 x8 x9)
open Cert.KernelIdeal.Layer1 (x3 x4 x10 x11 x12)

/-! ## The third stretch of host operations, for any float values -/

section Reading

variable {F : FTy → Type} [FloatOps F]
variable (Wv : Valuation τ sig (Elt F))
variable (a0 : Vec F S1000000x128 .f32) (a1 a2 : Vec F S2000000 .i32) (a3 a4 : Vec F S200000 .i32) (a5 a6 : Vec F S20480 .i32)
  (a7 a8 : FVec F S128x256 .f32) (a9 : Vec F S256 .f32) (a10 a11 : FVec F S256x256 .f32) (a12 : Vec F S256 .f32)
  (a13 a14 : FVec F S256x47 .f32) (a15 : Vec F S47 .f32)

/-- The leading rows of the second layer's output. -/
theorem rd0
    (h52 : extractStridedSlice S20000x256 ![0, 0] ((TRef.of main_call0_v52 : TRef sig ⟨S20480x256, .f32⟩).ofBuf (Wv (Proc.devRef .tc main_call0_v52))) slices_S20480x256_S20000x256_0_0
      = val_main_v53 (F := F) a0 a1 a2 a3 a4 a7 a8 a9 a10 a11 a12) :
    (StableHlo.after hostOps2 Wv (Proc.devRef .tc main_call0_v73) : Vec F S2048x256 .f32)
      = val_main_v73 (F := F) a0 a1 a2 a3 a4 a7 a8 a9 a10 a11 a12 := by
  after_results_simp
  rw [h52]
  rfl

set_option maxHeartbeats 4000000 in
/-- The neighbour mean of the second layer's output. -/
theorem rd1
    (h52 : extractStridedSlice S20000x256 ![0, 0] ((TRef.of main_call0_v52 : TRef sig ⟨S20480x256, .f32⟩).ofBuf (Wv (Proc.devRef .tc main_call0_v52))) slices_S20480x256_S20000x256_0_0
      = val_main_v53 (F := F) a0 a1 a2 a3 a4 a7 a8 a9 a10 a11 a12)
    (h5 : ((TRef.of main_arg5 : TRef sig ⟨S20480, .i32⟩).ofBuf (Wv (Proc.devRef .tc main_arg5))) = a5) (h6 : ((TRef.of main_arg6 : TRef sig ⟨S20480, .i32⟩).ofBuf (Wv (Proc.devRef .tc main_arg6))) = a6) :
    (StableHlo.after hostOps2 Wv (Proc.devRef .tc main_call0_v72) : Vec F S2048x256 .f32)
      = val_main_v72 (F := F) a0 a1 a2 a3 a4 a5 a6 a7 a8 a9 a10 a11 a12 := by
  after_results_simp
  rw [h52, h5, h6]
  rfl

theorem rd2 (h13 : ((TRef.of main_arg13 : TRef sig ⟨S256x47, .f32⟩).ofBuf (Wv (Proc.devRef .tc main_arg13))) = a13) :
    (StableHlo.after hostOps2 Wv (Proc.devRef .tc main_call0_v74) : Vec F S256x47 .bf16)
      = (truncf .bf16 a13 bitsLt_bf16_f32 : FVec F S256x47 .bf16) := by
  after_results_simp
  rw [h13]
  rfl
theorem rd3 (h14 : ((TRef.of main_arg14 : TRef sig ⟨S256x47, .f32⟩).ofBuf (Wv (Proc.devRef .tc main_arg14))) = a14) :
    (StableHlo.after hostOps2 Wv (Proc.devRef .tc main_call0_v75) : Vec F S256x47 .bf16)
      = (truncf .bf16 a14 bitsLt_bf16_f32 : FVec F S256x47 .bf16) := by
  after_results_simp
  rw [h14]
  rfl
theorem rd4 (h15 : ((TRef.of main_arg15 : TRef sig ⟨S47, .f32⟩).ofBuf (Wv (Proc.devRef .tc main_arg15))) = a15) :
    (StableHlo.after hostOps2 Wv (Proc.devRef .tc main_call0_v76) : Vec F S1x47 .f32)
      = shapeCast S1x47 a15 shapeCasts_S47_S1x47 := by
  after_results_simp
  subst h15
  rfl

end Reading

/-! ## Over the extended reals -/

variable (m : (ℓ : Loc nD τ sig) → Buf (Elt Ideal) ℓ) (ρ : Dev nD → PrngReg)

/-- The further arguments the last layer reads, at their literal shapes. -/
abbrev x5 (c : Dev nD) : Vec Ideal S20480 .i32 := m ((c : Thread nD τ).loc main_arg5)
abbrev x6 (c : Dev nD) : Vec Ideal S20480 .i32 := m ((c : Thread nD τ).loc main_arg6)
abbrev x13 (c : Dev nD) : FVec Ideal S256x47 .f32 := m ((c : Thread nD τ).loc main_arg13)
abbrev x14 (c : Dev nD) : FVec Ideal S256x47 .f32 := m ((c : Thread nD τ).loc main_arg14)
abbrev x15 (c : Dev nD) : Vec Ideal S47 .f32 := m ((c : Thread nD τ).loc main_arg15)

theorem in0 (c : Dev nD) :
    Region2.arr0 (V5 m ρ) c
      = val_main_v73 (F := Ideal) (x0 m c) (x1 m c) (x2 m c) (x3 m c) (x4 m c) (x7 m c) (x8 m c) (x9 m c) (x10 m c) (x11 m c) (x12 m c) :=
  rd0 (W4 m ρ c) (x0 m c) (x1 m c) (x2 m c) (x3 m c) (x4 m c) (x7 m c) (x8 m c) (x9 m c) (x10 m c) (x11 m c) (x12 m c) (Layer1.out m ρ c)
theorem in1 (c : Dev nD) :
    Region2.arr1 (V5 m ρ) c
      = val_main_v72 (F := Ideal) (x0 m c) (x1 m c) (x2 m c) (x3 m c) (x4 m c) (x5 m c) (x6 m c) (x7 m c) (x8 m c) (x9 m c) (x10 m c) (x11 m c) (x12 m c) :=
  rd1 (W4 m ρ c) (x0 m c) (x1 m c) (x2 m c) (x3 m c) (x4 m c) (x5 m c) (x6 m c) (x7 m c) (x8 m c) (x9 m c) (x10 m c) (x11 m c) (x12 m c)
    (Layer1.out m ρ c) (Args.W4_main_arg5 m ρ c) (Args.W4_main_arg6 m ρ c)
theorem in2 (c : Dev nD) : Region2.arr2 (V5 m ρ) c = (truncf .bf16 (x13 m c) bitsLt_bf16_f32 : FVec Ideal S256x47 .bf16) :=
  rd2 (W4 m ρ c) (x13 m c) (Args.W4_main_arg13 m ρ c)
theorem in3 (c : Dev nD) : Region2.arr3 (V5 m ρ) c = (truncf .bf16 (x14 m c) bitsLt_bf16_f32 : FVec Ideal S256x47 .bf16) :=
  rd3 (W4 m ρ c) (x14 m c) (Args.W4_main_arg14 m ρ c)
theorem in4 (c : Dev nD) : Region2.arr4 (V5 m ρ) c = shapeCast S1x47 (x15 m c) shapeCasts_S47_S1x47 :=
  rd4 (W4 m ρ c) (x15 m c) (Args.W4_main_arg15 m ρ c)

/-- THE RESULT: after the last region the result buffer holds the reference's result as a function of the arguments. -/
theorem out (c : Dev nD) :
    (W6 m ρ c (Proc.devRef .tc main_v0) : Vec Ideal S2048x47 .f32)
      = val_main_v79 (F := Ideal) (x0 m c) (x1 m c) (x2 m c) (x3 m c) (x4 m c) (x5 m c) (x6 m c) (x7 m c) (x8 m c) (x9 m c)
          (x10 m c) (x11 m c) (x12 m c) (x13 m c) (x14 m c) (x15 m c) := by
  have hW : (W6 m ρ c (Proc.devRef .tc main_v0) : Vec Ideal S2048x47 .f32)
      = Region2.G (Region2.arr0 (V5 m ρ) c) (Region2.arr1 (V5 m ρ) c) (Region2.arr2 (V5 m ρ) c) (Region2.arr3 (V5 m ρ) c) (Region2.arr4 (V5 m ρ) c) :=
    (W6_arr m ρ c 5).trans (Region2.arr_out (V5 m ρ) c)
  rw [hW, in0, in1, in2, in3, in4]
  exact Dense2.dense_eq _ _ _ _ _ _ _ _ _ _ _ _ _ _ _ _

end Cert.KernelIdeal.Layer2

end
-- ==== Proof.lean ====
/-
  A three-layer neighbour-averaging network (gather the source rows of each edge, sum them per destination, divide by the
  larger of the destination's edge count and one; then  out = h_dst·W_self + h_neigh·W_neigh + b,  with a maximum with zero
  after the first two layers), once with the dense step of each layer in a grid of 2048-row blocks on zero-padded arrays and
  once as whole-array dot products.

  Over the extended reals the two agree entry by entry. The gathers, the segment sums and the quotient are the same host
  operations in both programs and are carried as they stand. In the dense step the products into a zero accumulator are
  the same sums over the contracted axis as the dot products, the narrower float format of the operands is the identity,
  the blocks tile the padded output, a kept row of a padded array is the unpadded row, and the padded rows are cut off
  again before the next layer reads them. No algebraic law beyond reading both sides at an entry is used, so the
  precondition (finite inputs) is never opened. Layer by layer: Proof/Region*.lean (a region's output array as one function
  of the arrays it finds), Proof/Dense*.lean (that function on the padded arrays against the reference's stage),
  Proof/Layer*.lean (the arrays a region finds, read off the host operations before it), Proof/KRun.lean (the run with
  the result buffer kept), Proof/Args.lean (arguments read back between the stretches).
-/
import proofs.«130816_j76673756168338_1_alg».proof.Defs
import proofs.«130816_j76673756168338_1_alg».proof.Proof.Gen.Kernel
import proofs.«130816_j76673756168338_1_alg».proof.Proof.Gen.Kernel.Skeleton
import proofs.«130816_j76673756168338_1_alg».proof.Proof.Gen.Kernel.Launch
import proofs.«130816_j76673756168338_1_alg».proof.Proof.Gen.Kernel.Points
import proofs.«130816_j76673756168338_1_alg».proof.Proof.Gen.Kernel.Frame
import proofs.«130816_j76673756168338_1_alg».proof.Proof.Gen.KernelIdeal
import proofs.«130816_j76673756168338_1_alg».proof.Proof.Gen.KernelIdeal.Skeleton
import proofs.«130816_j76673756168338_1_alg».proof.Proof.Gen.KernelIdeal.Launch
import proofs.«130816_j76673756168338_1_alg».proof.Proof.Gen.KernelIdeal.Points
import proofs.«130816_j76673756168338_1_alg».proof.Proof.Gen.KernelIdeal.Frame
import proofs.«130816_j76673756168338_1_alg».proof.Proof.Gen.ReferenceIdeal
import proofs.«130816_j76673756168338_1_alg».proof.Proof.Gen.Pre_finite_inputs
import proofs.«130816_j76673756168338_1_alg».proof.Proof.Gen.ReferenceIdeal.Run
import proofs.«130816_j76673756168338_1_alg».proof.Proof.Gen.ReferenceIdeal.Read
import proofs.«130816_j76673756168338_1_alg».proof.Proof.KRun
import proofs.«130816_j76673756168338_1_alg».proof.Proof.Layer2
import Idealize.ShloMosaic.Adequacy
import Idealize.ShloMosaic.Init

noncomputable section

namespace Cert.Proof

open Idealize.ShloMosaic Idealize.SL.Sem Cert.Kernel

/-- The word-level program and its idealization run to the end with the arguments unchanged: the generated frames. -/
theorem frame_k : Cert.frame_Kernel := fun m ρ _ => Cert.Kernel.Gen.frame m ρ
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing: its ledger is empty. -/
theorem preserves : Cert.preserves_Kernel_KernelIdeal := trivial

open Cert.KernelIdeal.Layer0 (x0 x1 x2 x7 x8 x9) in
open Cert.KernelIdeal.Layer1 (x3 x4 x10 x11 x12) in
open Cert.KernelIdeal.Layer2 (x5 x6 x13 x14 x15) in
/-- Both runs end with the result at the reference's last stage of the (agreeing) arguments: the kernel program's by
    the three layers read off its state, the reference's by its own run. -/
theorem algebraic : Cert.algebraic_KernelIdeal_ReferenceIdeal := by
  intro m ρ m' ρ' _ hagree
  refine ⟨fun c => Cert.ReferenceIdeal.Read.val_main_v79 (F := Ideal) (x0 m c) (x1 m c) (x2 m c) (x3 m c) (x4 m c) (x5 m c) (x6 m c)
    (x7 m c) (x8 m c) (x9 m c) (x10 m c) (x11 m c) (x12 m c) (x13 m c) (x14 m c) (x15 m c), ?_, ?_⟩
  · exact (θ_run Cert.KernelIdeal.defs _ _).mono (fun r h c => ⟨(h c).1.trans (Cert.KernelIdeal.Layer2.out m ρ c), (h c).2⟩)
      (Cert.KernelIdeal.Run.run_main m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11, h12, h13, h14, h15⟩ := hagree c
    rw [Cert.ReferenceIdeal.Read.val_main_v79_eq, h0, h1, h2, h3, h4, h5, h6, h7, h8, h9, h10, h11, h12, h13, h14, h15]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
